-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1024 : Shape := ⟨2, ![20000, 1024]⟩
abbrev S81x1024 : Shape := ⟨2, ![81, 1024]⟩
abbrev S81 : Shape := ⟨1, ![81]⟩
abbrev S320x1024 : Shape := ⟨2, ![320, 1024]⟩
abbrev S320 : Shape := ⟨1, ![320]⟩
abbrev S_ : Shape := ⟨0, ![]⟩

class Facts : Prop where
  bcast_S_S20000x1024 : S_.BroadcastsInDim S20000x1024 (![] : Fin 0 → Fin S20000x1024.rank)
  reducesTo_S20000x1024_S_d0_1 : S20000x1024.ReducesTo [0, 1] S_
  h_S_ : 0 < S_.numel
  bcast_S_S81x1024 : S_.BroadcastsInDim S81x1024 (![] : Fin 0 → Fin S81x1024.rank)
  reducesTo_S81x1024_S_d0_1 : S81x1024.ReducesTo [0, 1] S_
  bcast_S_S81 : S_.BroadcastsInDim S81 (![] : Fin 0 → Fin S81.rank)
  reducesTo_S81_S_d0 : S81.ReducesTo [0] S_
  bcast_S_S320x1024 : S_.BroadcastsInDim S320x1024 (![] : Fin 0 → Fin S320x1024.rank)
  reducesTo_S320x1024_S_d0_1 : S320x1024.ReducesTo [0, 1] S_
  bcast_S_S320 : S_.BroadcastsInDim S320 (![] : Fin 0 → Fin S320.rank)
  reducesTo_S320_S_d0 : S320.ReducesTo [0] S_

variable [Facts]

def fn_part1 {F : FTy → Type} [FloatOps F] (main_arg4 : FVec F S320 .f32) (main_v13 : IVec S_ 1) (main_v16 : IVec S320x1024 1) : IVec S_ 1 :=
  let main_c_5 : IVec S_ 1 := constantI S_ 1 1#1
  let main_v17 : IVec S_ 1 := (fun x v => Host.reduce IntOp.andi x v reducesTo_S320x1024_S_d0_1 h_S_) main_v16 main_c_5
  let main_v18 : IVec S_ 1 := andi main_v13 main_v17
  let main_v19 : FVec F S320 .f32 := Host.absf main_arg4
  let main_cst_6 : FVec F S_ .f32 := constant S_ .f32 0x7F800000#32
  let main_v20 : FVec F S320 .f32 := broadcastInDim S320 ![] bcast_S_S320 main_cst_6
  let main_v21 : IVec S320 1 := cmpf .olt main_v19 main_v20
  let main_c_7 : IVec S_ 1 := constantI S_ 1 1#1
  let main_v22 : IVec S_ 1 := (fun x v => Host.reduce IntOp.andi x v reducesTo_S320_S_d0 h_S_) main_v21 main_c_7
  let main_v23 : IVec S_ 1 := andi main_v18 main_v22
  main_v23

def fn {F : FTy → Type} [FloatOps F] (main_arg0 : FVec F S20000x1024 .f32) (main_arg1 : FVec F S81x1024 .f32) (main_arg2 : FVec F S81 .f32) (main_arg3 : FVec F S320x1024 .f32) (main_arg4 : FVec F S320 .f32) : IVec S_ 1 :=
  let main_v0 : FVec F S20000x1024 .f32 := Host.absf main_arg0
  let main_cst : FVec F S_ .f32 := constant S_ .f32 0x7F800000#32
  let main_v1 : FVec F S20000x1024 .f32 := broadcastInDim S20000x1024 ![] bcast_S_S20000x1024 main_cst
  let main_v2 : IVec S20000x1024 1 := cmpf .olt main_v0 main_v1
  let main_c : IVec S_ 1 := constantI S_ 1 1#1
  let main_v3 : IVec S_ 1 := (fun x v => Host.reduce IntOp.andi x v reducesTo_S20000x1024_S_d0_1 h_S_) main_v2 main_c
  let main_v4 : FVec F S81x1024 .f32 := Host.absf main_arg1
  let main_cst_0 : FVec F S_ .f32 := constant S_ .f32 0x7F800000#32
  let main_v5 : FVec F S81x1024 .f32 := broadcastInDim S81x1024 ![] bcast_S_S81x1024 main_cst_0
  let main_v6 : IVec S81x1024 1 := cmpf .olt main_v4 main_v5
  let main_c_1 : IVec S_ 1 := constantI S_ 1 1#1
  let main_v7 : IVec S_ 1 := (fun x v => Host.reduce IntOp.andi x v reducesTo_S81x1024_S_d0_1 h_S_) main_v6 main_c_1
  let main_v8 : IVec S_ 1 := andi main_v3 main_v7
  let main_v9 : FVec F S81 .f32 := Host.absf main_arg2
  let main_cst_2 : FVec F S_ .f32 := constant S_ .f32 0x7F800000#32
  let main_v10 : FVec F S81 .f32 := broadcastInDim S81 ![] bcast_S_S81 main_cst_2
  let main_v11 : IVec S81 1 := cmpf .olt main_v9 main_v10
  let main_c_3 : IVec S_ 1 := constantI S_ 1 1#1
  let main_v12 : IVec S_ 1 := (fun x v => Host.reduce IntOp.andi x v reducesTo_S81_S_d0 h_S_) main_v11 main_c_3
  let main_v13 : IVec S_ 1 := andi main_v8 main_v12
  let main_v14 : FVec F S320x1024 .f32 := Host.absf main_arg3
  let main_cst_4 : FVec F S_ .f32 := constant S_ .f32 0x7F800000#32
  let main_v15 : FVec F S320x1024 .f32 := broadcastInDim S320x1024 ![] bcast_S_S320x1024 main_cst_4
  let main_v16 : IVec S320x1024 1 := cmpf .olt main_v14 main_v15
  fn_part1 (F := F) main_arg4 main_v13 main_v16
-- ==== Kernel.lean ====
abbrev S20000x1024 : Shape := ⟨2, ![20000, 1024]⟩
abbrev S81x1024 : Shape := ⟨2, ![81, 1024]⟩
abbrev S81 : Shape := ⟨1, ![81]⟩
abbrev S320x1024 : Shape := ⟨2, ![320, 1024]⟩
abbrev S320 : Shape := ⟨1, ![320]⟩
abbrev S1x81 : Shape := ⟨2, ![1, 81]⟩
abbrev S1x320 : Shape := ⟨2, ![1, 320]⟩
abbrev S81x20000 : Shape := ⟨2, ![81, 20000]⟩
abbrev S320x20000 : Shape := ⟨2, ![320, 20000]⟩
abbrev S20000x81 : Shape := ⟨2, ![20000, 81]⟩
abbrev S20000x320 : Shape := ⟨2, ![20000, 320]⟩
abbrev S2560x512 : Shape := ⟨2, ![2560, 512]⟩
abbrev S81x2560 : Shape := ⟨2, ![81, 2560]⟩
abbrev S320x2560 : Shape := ⟨2, ![320, 2560]⟩
abbrev S81x512 : Shape := ⟨2, ![81, 512]⟩
abbrev S320x512 : Shape := ⟨2, ![320, 512]⟩
abbrev S81x1 : Shape := ⟨2, ![81, 1]⟩
abbrev S320x1 : Shape := ⟨2, ![320, 1]⟩

abbrev nBuf : Space → Nat
  | .hbm => 11
  | .vmem => 10
  | .smem => 0
  | _ => 0

abbrev bufTy : (tb : Table) → Fin (tcTables nBuf tb) → BufTy
  | .hbm, ⟨0, _⟩ => ⟨S20000x1024, .f32⟩
  | .hbm, ⟨1, _⟩ => ⟨S81x1024, .f32⟩
  | .hbm, ⟨2, _⟩ => ⟨S81, .f32⟩
  | .hbm, ⟨3, _⟩ => ⟨S320x1024, .f32⟩
  | .hbm, ⟨4, _⟩ => ⟨S320, .f32⟩
  | .hbm, ⟨5, _⟩ => ⟨S1x81, .f32⟩
  | .hbm, ⟨6, _⟩ => ⟨S1x320, .f32⟩
  | .hbm, ⟨7, _⟩ => ⟨S81x20000, .f32⟩
  | .hbm, ⟨8, _⟩ => ⟨S320x20000, .f32⟩
  | .hbm, ⟨9, _⟩ => ⟨S20000x81, .f32⟩
  | .hbm, ⟨10, _⟩ => ⟨S20000x320, .f32⟩
  | .local _ .vmem, ⟨0, _⟩ => ⟨S2560x512, .f32⟩
  | .local _ .vmem, ⟨1, _⟩ => ⟨S2560x512, .f32⟩
  | .local _ .vmem, ⟨2, _⟩ => ⟨S81x1024, .f32⟩
  | .local _ .vmem, ⟨3, _⟩ => ⟨S1x81, .f32⟩
  | .local _ .vmem, ⟨4, _⟩ => ⟨S320x1024, .f32⟩
  | .local _ .vmem, ⟨5, _⟩ => ⟨S1x320, .f32⟩
  | .local _ .vmem, ⟨6, _⟩ => ⟨S81x2560, .f32⟩
  | .local _ .vmem, ⟨7, _⟩ => ⟨S81x2560, .f32⟩
  | .local _ .vmem, ⟨8, _⟩ => ⟨S320x2560, .f32⟩
  | .local _ .vmem, ⟨9, _⟩ => ⟨S320x2560, .f32⟩
  | _, _ => ⟨S20000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2_0 : Ref sig .tc := ⟨.hbm, 7, rfl⟩
abbrev main_call0_v2_1 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 2], ![false, false]⟩

def k0_off1 (i : grid0.Coords) : Fin 2 → Nat :=
  let c0_1 : Index := 0#32
  let arg1 : BitVec 32 := BitVec.ofNat 32 (i 1).val
  let c512_i32 : BitVec 32 := 512#32
  let v1 : BitVec 32 := Scalar.muli arg1 c512_i32
  let v2 : Index := Scalar.indexCast v1
  ![0, v2.toNat]
def k0_off2 (i : grid0.Coords) : Fin 2 → Nat :=
  let c0_2 : Index := 0#32
  let arg1 : BitVec 32 := BitVec.ofNat 32 (i 1).val
  let c512_i32 : BitVec 32 := 512#32
  let v1 : BitVec 32 := Scalar.muli arg1 c512_i32
  let v5 : Index := Scalar.indexCast v1
  ![0, v5.toNat]
def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_4 : BitVec 32 := 0#32
  let v10 : BitVec 1 := Scalar.cmpi .ne v9 c0_i32_4
  v10

def k0_cond2 (i : grid0.Coords) : BitVec 1 :=
  let arg1 : BitVec 32 := BitVec.ofNat 32 (i 1).val
  let c0_i32_5 : BitVec 32 := 0#32
  let v11 : BitVec 1 := Scalar.cmpi .sgt arg1 c0_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2560x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S81x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x81 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S320x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S81x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S320x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S81_S1x81 : S81.ShapeCasts S1x81
  shapeCasts_S320_S1x320 : S320.ShapeCasts S1x320
  transposes_S81x20000_S20000x81_1_0 : S81x20000.Transposes [1, 0] S20000x81
  transposes_S320x20000_S20000x320_1_0 : S320x20000.Transposes [1, 0] S20000x320
  inb_S2560x512_S2560x512_0_0 : ∀ a, (![0, 0] : Fin 2 → Nat) a + S2560x512.size a ≤ S2560x512.size a
  h_S2560x512 : 0 < S2560x512.numel
  h_S81x512 : 0 < S81x512.numel
  h_S320x512 : 0 < S320x512.numel
  inb_S1x81_S1x81_0_0 : ∀ a, (![0, 0] : Fin 2 → Nat) a + S1x81.size a ≤ S1x81.size a
  h_S1x81 : 0 < S1x81.numel
  shapeCasts_S1x81_S1x81 : S1x81.ShapeCasts S1x81
  transposes_S1x81_p1_0_S81x1 : S1x81.Transposes [1, 0] S81x1
  broadcasts_S81x1_S81x2560 : S81x1.Broadcasts S81x2560
  inb_S81x2560_S81x2560_0_0 : ∀ a, (![0, 0] : Fin 2 → Nat) a + S81x2560.size a ≤ S81x2560.size a
  h_S81x2560 : 0 < S81x2560.numel
  inb_S1x320_S1x320_0_0 : ∀ a, (![0, 0] : Fin 2 → Nat) a + S1x320.size a ≤ S1x320.size a
  h_S1x320 : 0 < S1x320.numel
  shapeCasts_S1x320_S1x320 : S1x320.ShapeCasts S1x320
  transposes_S1x320_p1_0_S320x1 : S1x320.Transposes [1, 0] S320x1
  broadcasts_S320x1_S320x2560 : S320x1.Broadcasts S320x2560
  inb_S320x2560_S320x2560_0_0 : ∀ a, (![0, 0] : Fin 2 → Nat) a + S320x2560.size a ≤ S320x2560.size a
  h_S320x2560 : 0 < S320x2560.numel
  shapeCasts_S81x2560_S81x2560 : S81x2560.ShapeCasts S81x2560
  shapeCasts_S320x2560_S320x2560 : S320x2560.ShapeCasts S320x2560
  dot_S81x512_S2560x512_S81x2560_1_1_0_0_n_n_wf : DotDims.WF S81x512 S2560x512 S81x2560 [1] [1] [0] [0] [] []
  dot_S320x512_S2560x512_S320x2560_1_1_0_0_n_n_wf : DotDims.WF S320x512 S2560x512 S320x2560 [1] [1] [0] [0] [] []
  hrank0 : 0 < grid0.rank
  k0_off1_inb : ∀ i : grid0.Coords, ∀ a, (k0_off1 i) a + S81x512.size a ≤ S81x1024.size a
  k0_off2_inb : ∀ i : grid0.Coords, ∀ a, (k0_off2 i) a + S320x512.size a ≤ S320x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2560x512.size a < S20000x1024.size a
  hwx0_0 : ∀ i : grid0.Coords, EltTy.bits .f32 = 32 ∨ (Rect.unit (s := S20000x1024) (fun a => cc0_transform_0 i a * S2560x512.size a) (fun a => (Pipeline.Clip.of (cc0_transform_0 i a) (S2560x512.size a) (S20000x1024.size a)).extent (S2560x512.size a)) fun a => Pipeline.Clip.inb (Pipeline.Clip.ok_of (hstart0_0 i a))).WholeWords (EltTy.packing .f32)
  hwxs0_0 : ∀ i : grid0.Coords, EltTy.bits .f32 = 32 ∨ (Rect.unit (s := S2560x512) (fun _ => 0) (fun a => (Pipeline.Clip.of (cc0_transform_0 i a) (S2560x512.size a) (S20000x1024.size a)).extent (S2560x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S81x1024.size a ≤ S81x1024.size a
  hwx0_1 : ∀ i : grid0.Coords, EltTy.bits .f32 = 32 ∨ (Rect.block (s := S81x1024) S81x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x81.size a ≤ S1x81.size a
  hwx0_2 : ∀ i : grid0.Coords, EltTy.bits .f32 = 32 ∨ (Rect.block (s := S1x81) S1x81.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x1024.size a ≤ S320x1024.size a
  hwx0_3 : ∀ i : grid0.Coords, EltTy.bits .f32 = 32 ∨ (Rect.block (s := S320x1024) S320x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x320.size a ≤ S1x320.size a
  hwx0_4 : ∀ i : grid0.Coords, EltTy.bits .f32 = 32 ∨ (Rect.block (s := S1x320) S1x320.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S81x2560.size a < S81x20000.size a
  hwx0_5 : ∀ i : grid0.Coords, EltTy.bits .f32 = 32 ∨ (Rect.unit (s := S81x20000) (fun a => cc0_transform_5 i a * S81x2560.size a) (fun a => (Pipeline.Clip.of (cc0_transform_5 i a) (S81x2560.size a) (S81x20000.size a)).extent (S81x2560.size a)) fun a => Pipeline.Clip.inb (Pipeline.Clip.ok_of (hstart0_5 i a))).WholeWords (EltTy.packing .f32)
  hwxs0_5 : ∀ i : grid0.Coords, EltTy.bits .f32 = 32 ∨ (Rect.unit (s := S81x2560) (fun _ => 0) (fun a => (Pipeline.Clip.of (cc0_transform_5 i a) (S81x2560.size a) (S81x20000.size a)).extent (S81x2560.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S320x2560.size a < S320x20000.size a
  hwx0_6 : ∀ i : grid0.Coords, EltTy.bits .f32 = 32 ∨ (Rect.unit (s := S320x20000) (fun a => cc0_transform_6 i a * S320x2560.size a) (fun a => (Pipeline.Clip.of (cc0_transform_6 i a) (S320x2560.size a) (S320x20000.size a)).extent (S320x2560.size a)) fun a => Pipeline.Clip.inb (Pipeline.Clip.ok_of (hstart0_6 i a))).WholeWords (EltTy.packing .f32)
  hwxs0_6 : ∀ i : grid0.Coords, EltTy.bits .f32 = 32 ∨ (Rect.unit (s := S320x2560) (fun _ => 0) (fun a => (Pipeline.Clip.of (cc0_transform_6 i a) (S320x2560.size a) (S320x20000.size a)).extent (S320x2560.size a)) fun a => (Nat.zero_add _).trans_le (Pipeline.Clip.extent_le (Pipeline.Clip.ok_of (hstart0_6 i a)))).WholeWords (EltTy.packing .f32)

variable [Facts₀]

def dot_S81x512_S2560x512_S81x2560_1_1_0_0_n_n : DotDims S81x512 S2560x512 S81x2560 where
  lhsContracting := [1]
  rhsContracting := [1]
  lhsNonContracting := [0]
  rhsNonContracting := [0]
  lhsBatch := []
  rhsBatch := []
  wf := dot_S81x512_S2560x512_S81x2560_1_1_0_0_n_n_wf
def dot_S320x512_S2560x512_S320x2560_1_1_0_0_n_n : DotDims S320x512 S2560x512 S320x2560 where
  lhsContracting := [1]
  rhsContracting := [1]
  lhsNonContracting := [0]
  rhsNonContracting := [0]
  lhsBatch := []
  rhsBatch := []
  wf := dot_S320x512_S2560x512_S320x2560_1_1_0_0_n_n_wf

abbrev win0_0 : Pipeline.Window sig grid0 :=
  Pipeline.Window.ofSpecClip (Memref.whole main_arg0) S2560x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S81x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x81.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S320x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x320.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_call0_v2_0) S81x2560.size cc0_transform_5 reads0_5 true false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_call0_v2_1) S320x2560.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond1 i == 1#1) && !(k0_cond2 i == 1#1) | 6 => fun i => !(k0_cond1 i == 1#1) && !(k0_cond2 i == 1#1) | ⟨_ + 7, h⟩ => absurd h (Nat.not_lt.2 (Nat.le_add_left _ _))

class Facts : Prop extends Facts₀ where

variable [Facts]
-- ==== ReferenceIdeal.lean ====
abbrev S20000x1024 : Shape := ⟨2, ![20000, 1024]⟩
abbrev S81x1024 : Shape := ⟨2, ![81, 1024]⟩
abbrev S81 : Shape := ⟨1, ![81]⟩
abbrev S320x1024 : Shape := ⟨2, ![320, 1024]⟩
abbrev S320 : Shape := ⟨1, ![320]⟩
abbrev S1024x81 : Shape := ⟨2, ![1024, 81]⟩
abbrev S20000x81 : Shape := ⟨2, ![20000, 81]⟩
abbrev S1x81 : Shape := ⟨2, ![1, 81]⟩
abbrev S1024x320 : Shape := ⟨2, ![1024, 320]⟩
abbrev S20000x320 : Shape := ⟨2, ![20000, 320]⟩
abbrev S1x320 : Shape := ⟨2, ![1, 320]⟩

abbrev nBuf : Space → Nat
  | .hbm => 15
  | .vmem => 0
  | .smem => 0
  | _ => 0

abbrev bufTy : (tb : Table) → Fin (tcTables nBuf tb) → BufTy
  | .hbm, ⟨0, _⟩ => ⟨S20000x1024, .f32⟩
  | .hbm, ⟨1, _⟩ => ⟨S81x1024, .f32⟩
  | .hbm, ⟨2, _⟩ => ⟨S81, .f32⟩
  | .hbm, ⟨3, _⟩ => ⟨S320x1024, .f32⟩
  | .hbm, ⟨4, _⟩ => ⟨S320, .f32⟩
  | .hbm, ⟨5, _⟩ => ⟨S1024x81, .f32⟩
  | .hbm, ⟨6, _⟩ => ⟨S20000x81, .f32⟩
  | .hbm, ⟨7, _⟩ => ⟨S1x81, .f32⟩
  | .hbm, ⟨8, _⟩ => ⟨S20000x81, .f32⟩
  | .hbm, ⟨9, _⟩ => ⟨S20000x81, .f32⟩
  | .hbm, ⟨10, _⟩ => ⟨S1024x320, .f32⟩
  | .hbm, ⟨11, _⟩ => ⟨S20000x320, .f32⟩
  | .hbm, ⟨12, _⟩ => ⟨S1x320, .f32⟩
  | .hbm, ⟨13, _⟩ => ⟨S20000x320, .f32⟩
  | .hbm, ⟨14, _⟩ => ⟨S20000x320, .f32⟩
  | _, _ => ⟨S20000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  transposes_S81x1024_S1024x81_1_0 : S81x1024.Transposes [1, 0] S1024x81
  bcast_S81_S1x81_1 : S81.BroadcastsInDim S1x81 (![1] : Fin 1 → Fin S1x81.rank)
  bcast_S1x81_S20000x81_0_1 : S1x81.BroadcastsInDim S20000x81 (![0, 1] : Fin 2 → Fin S20000x81.rank)
  transposes_S320x1024_S1024x320_1_0 : S320x1024.Transposes [1, 0] S1024x320
  bcast_S320_S1x320_1 : S320.BroadcastsInDim S1x320 (![1] : Fin 1 → Fin S1x320.rank)
  bcast_S1x320_S20000x320_0_1 : S1x320.BroadcastsInDim S20000x320 (![0, 1] : Fin 2 → Fin S20000x320.rank)
  dot_S20000x1024_S1024x81_S20000x81_1_0_0_1_n_n_wf : DotDims.WF S20000x1024 S1024x81 S20000x81 [1] [0] [0] [1] [] []
  dot_S20000x1024_S1024x320_S20000x320_1_0_0_1_n_n_wf : DotDims.WF S20000x1024 S1024x320 S20000x320 [1] [0] [0] [1] [] []

variable [Facts₀]

def dot_S20000x1024_S1024x81_S20000x81_1_0_0_1_n_n : DotDims S20000x1024 S1024x81 S20000x81 where
  lhsContracting := [1]
  rhsContracting := [0]
  lhsNonContracting := [0]
  rhsNonContracting := [1]
  lhsBatch := []
  rhsBatch := []
  wf := dot_S20000x1024_S1024x81_S20000x81_1_0_0_1_n_n_wf
def dot_S20000x1024_S1024x320_S20000x320_1_0_0_1_n_n : DotDims S20000x1024 S1024x320 S20000x320 where
  lhsContracting := [1]
  rhsContracting := [0]
  lhsNonContracting := [0]
  rhsNonContracting := [1]
  lhsBatch := []
  rhsBatch := []
  wf := dot_S20000x1024_S1024x320_S20000x320_1_0_0_1_n_n_wf

class Facts : Prop extends Facts₀ where

variable [Facts]
-- ==== Proof.Bits.Runs.lean ====
/-
  The fused pair of linear layers, one grid point at a time: what the two conditionals of the body test, and the
  staging buffers the pipeline hands the body at a point.

  The grid is 8 row blocks by 2 halves of the contraction; point t has row block t / 2 and half t % 2. The first
  conditional (store the product plus the bias) is taken exactly on the first half, the second (add the product to
  what the buffer holds) exactly on the second half, so every point is in exactly one of two cases.
-/
import proofs.«141124_g6244882448852_cont_9to1_m_469_19_alg».proof.Proof.Gen.Kernel.Frame
import proofs.«141124_g6244882448852_cont_9to1_m_469_19_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Kernel Cert.Kernel.Gen

variable {F : FTy → Type} [FloatOps F]

local notation "𝕄" => MT nD τ sig Unit (Elt F) ℕ (UR sig nD τ) ℕ

/-- The first conditional holds exactly at the points of the first half of the contraction. -/
theorem hcondA : ∀ t : Fin cfg0.N, k0_cond1 (grid0.coords t) = 1#1 ↔ t.val % 2 = 0 :=
  (by decide +kernel : ∀ t : Fin grid0.N, k0_cond1 (grid0.coords t) = 1#1 ↔ t.val % 2 = 0)
/-- The second conditional holds exactly at the points of the second half. -/
theorem hcondB : ∀ t : Fin cfg0.N, k0_cond2 (grid0.coords t) = 1#1 ↔ t.val % 2 = 1 :=
  (by decide +kernel : ∀ t : Fin grid0.N, k0_cond2 (grid0.coords t) = 1#1 ↔ t.val % 2 = 1)

/-- Each window's current staging buffer at point t, spelled as the pipeline passes it to the body, and that it
    is a whole buffer. -/
abbrev ms0 (t : Fin cfg0.N) : Memref sig .tc .vmem S2560x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S81x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x81 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S320x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x320 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S81x2560 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S320x2560 .f32 := win0_6.stage (cfg0.slots t 6)
abbrev hs6 (t : Fin cfg0.N) : (ms6 t).IsWhole := hstage0_6 ((cfg0.slots t 6).cast nbuf0_6)

/-- One staging buffer of each output window, through which its contents are read back (the choice does not
    matter: the stores cover the block). -/
abbrev VO5 : View sig .tc .vmem S81x2560 .f32 := (Memref.whole cc0_stg5_0 : Memref sig .tc .vmem S81x2560 .f32).view
abbrev VO6 : View sig .tc .vmem S320x2560 .f32 := (Memref.whole cc0_stg6_0 : Memref sig .tc .vmem S320x2560 .f32).view

end Cert.Kernel.Hand

end
-- ==== Proof.Bits.RunA.lean ====
/-
  The body at a point of the first half of the contraction (the first conditional taken, the second not), on any
  whole staging buffers: the five inputs' buffers are read and handed back as they were, and each output's buffer
  ends with one whole-block store of "product plus bias" — recorded as the list of pieces the run leaves there.
-/
import proofs.«141124_g6244882448852_cont_9to1_m_469_19_alg».proof.Proof.Bits.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Kernel Cert.Kernel.Gen

variable {F : FTy → Type} [FloatOps F]

local notation "𝕄" => MT nD τ sig Unit (Elt F) ℕ (UR sig nD τ) ℕ

set_option maxHeartbeats 1000000 in
/-- The pieces each output's staging buffer ends with in the first case, with the run that leaves them there:
    the inputs' buffers at any contents, the outputs' at anything (the body loads them before it stores, and
    never uses what it loaded). -/
noncomputable def kernelRunA (c : Dev nD) (i : grid0.Coords) (arg2 : Memref sig .tc .vmem S2560x512 .f32) (harg2 : arg2.IsWhole) (arg3 : Memref sig .tc .vmem S81x1024 .f32) (harg3 : arg3.IsWhole) (arg4 : Memref sig .tc .vmem S1x81 .f32) (harg4 : arg4.IsWhole) (arg5 : Memref sig .tc .vmem S320x1024 .f32) (harg5 : arg5.IsWhole) (arg6 : Memref sig .tc .vmem S1x320 .f32) (harg6 : arg6.IsWhole) (arg7 : Memref sig .tc .vmem S81x2560 .f32) (harg7 : arg7.IsWhole) (arg8 : Memref sig .tc .vmem S320x2560 .f32) (harg8 : arg8.IsWhole) (hc0 : k0_cond1 i = 1#1) (hc1 : ¬k0_cond2 i = 1#1)
    (x0 : Vec F S2560x512 .f32) (x1 : Vec F S81x1024 .f32) (x2 : Vec F S1x81 .f32) (x3 : Vec F S320x1024 .f32) (x4 : Vec F S1x320 .f32) :
    Σ' (L5 : List (View.Piece (Elt F) S81x2560 .f32)), { L6 : List (View.Piece (Elt F) S320x2560 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__fused_linear_kernel i arg2 harg2 arg3 harg3 arg4 harg4 arg5 harg5 arg6 harg6 arg7 harg7 arg8 harg8) K } := by
  refine ⟨?_, ?_, fun E K => ?run⟩
  case run =>
    simp only [cc0__fused_linear_kernel_eq_skeleton]; unfold cc0__fused_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact H6

end Cert.Kernel.Hand

end
-- ==== Proof.Bits.RunB.lean ====
/-
  The body at a point of the second half of the contraction (the first conditional not taken, the second taken), on
  any whole staging buffers: the inputs' buffers are read and handed back as they were; each output's buffer is read
  — it holds what the first half left — and ends with one whole-block store of "what it held plus the product".
-/
import proofs.«141124_g6244882448852_cont_9to1_m_469_19_alg».proof.Proof.Bits.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Kernel Cert.Kernel.Gen

variable {F : FTy → Type} [FloatOps F]

local notation "𝕄" => MT nD τ sig Unit (Elt F) ℕ (UR sig nD τ) ℕ

set_option maxHeartbeats 1000000 in
/-- The pieces each output's staging buffer ends with in the second case, with the run that leaves them there:
    the inputs' buffers at any contents, the outputs' at the running contents `xo5`, `xo6` the body adds to. -/
noncomputable def kernelRunB (c : Dev nD) (i : grid0.Coords) (arg2 : Memref sig .tc .vmem S2560x512 .f32) (harg2 : arg2.IsWhole) (arg3 : Memref sig .tc .vmem S81x1024 .f32) (harg3 : arg3.IsWhole) (arg4 : Memref sig .tc .vmem S1x81 .f32) (harg4 : arg4.IsWhole) (arg5 : Memref sig .tc .vmem S320x1024 .f32) (harg5 : arg5.IsWhole) (arg6 : Memref sig .tc .vmem S1x320 .f32) (harg6 : arg6.IsWhole) (arg7 : Memref sig .tc .vmem S81x2560 .f32) (harg7 : arg7.IsWhole) (arg8 : Memref sig .tc .vmem S320x2560 .f32) (harg8 : arg8.IsWhole) (hc0 : ¬k0_cond1 i = 1#1) (hc1 : k0_cond2 i = 1#1)
    (x0 : Vec F S2560x512 .f32) (x1 : Vec F S81x1024 .f32) (x2 : Vec F S1x81 .f32) (x3 : Vec F S320x1024 .f32) (x4 : Vec F S1x320 .f32) (xo5 : Vec F S81x2560 .f32) (xo6 : Vec F S320x2560 .f32) :
    Σ' (L5 : List (View.Piece (Elt F) S81x2560 .f32)), { L6 : List (View.Piece (Elt F) S320x2560 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__fused_linear_kernel i arg2 harg2 arg3 harg3 arg4 harg4 arg5 harg5 arg6 harg6 arg7 harg7 arg8 harg8) K } := by
  refine ⟨?_, ?_, fun E K => ?run⟩
  case run =>
    simp only [cc0__fused_linear_kernel_eq_skeleton]; unfold cc0__fused_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact H6

end Cert.Kernel.Hand

end
-- ==== Proof.Bits.Frame.lean ====
/-
  The word-level program's frame: every weakly fair execution of @main terminates without a fault and leaves the five
  argument arrays as they were launched, at any float instance.

  The first input window overhangs its array at the last row block, so its staging buffer's tail holds words that
  nothing names, and at the word level the matrix unit's result depends on the whole of that buffer: no output block
  can be named in advance. A frame needs no contents. So the pipeline's proof data here are relational and every
  window's relation holds of any two contents: the body obligation only has to show that the body, handed its seven
  staging buffers at any contents, runs and hands every buffer back at some contents. The inputs' arrays are never
  written by the pipeline, the two bias arrays bypass the region (it stages their reshapes), and the host lines after
  the region write only the two transposed results.
-/
import proofs.«141124_g6244882448852_cont_9to1_m_469_19_alg».proof.Proof.Bits.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data: nothing is said of any staging buffer -/

/-- Core `c`'s relational proof data: the arrays as the region finds them; of what the body leaves in a staging
    buffer, given what it found there, nothing; the invariant is the class's (the scoped rest and the generator
    register, at some contents); full shares; nothing owed. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The data's arrays are the region-entry contents (the definition projected, the host prefix never unfolded). -/
theorem A_eq (c : Dev nD) (w : Fin cfg0.W) : (rdat m c).A w = V m c (Pipeline.arrRef spec0 w) := by
  dsimp only [rdat]

/-- Every array is held at the full share: an output's by definition, an input's by the data's choice. -/
theorem share_eq (c : Dev nD) (w : Fin cfg0.W) : (rdat m c).share w = fullShare := by
  unfold RDat.share; split <;> rfl

/-! ## The body obligation -/

/-- A buffer held whole at any contents is its memref owned at some contents: those its view reads there. -/
theorem owns_some {sh : Shape} {e : EltTy} (c : Dev nD) (mr : Memref sig .tc .vmem sh e) (f : mr.view.ty.Contents (Elt F)) :
    (mr.view.loc (c : Thread nD τ) ↦[mr.view.set]{fullShare} f : sProp 𝕄)
      ⊢ iprop(∃ X, ⌜True⌝ ∗ owns (c : Thread nD τ) mr fullShare X) := by
  unfold owns
  iintro H
  iexists (mr.view.read (Elt F) f); isplitr; · ipureintro; trivial
  iexists f; isplitr; · ipureintro; rfl
  iexact H

set_option maxHeartbeats 1000000 in
/-- The body at any point, handed its seven staging buffers at any contents `Y`: the point is on the first half of
    the contraction or on the second, and in either case the body's run applies at these contents; every input's
    buffer comes back as it was, every output's at whatever the run's stores left, read back through the buffer's
    own view. The invariant and what the core owes pass through untouched. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc
        ∗ owns (c : Thread nD τ) (ms0 t) fullShare (Y 0)
        ∗ owns (c : Thread nD τ) (ms1 t) fullShare (Y 1)
        ∗ owns (c : Thread nD τ) (ms2 t) fullShare (Y 2)
        ∗ owns (c : Thread nD τ) (ms3 t) fullShare (Y 3)
        ∗ owns (c : Thread nD τ) (ms4 t) fullShare (Y 4)
        ∗ owns (c : Thread nD τ) (ms5 t) fullShare (Y 5)
        ∗ owns (c : Thread nD τ) (ms6 t) fullShare (Y 6))
      ⊢ wp frame (wpE (defs₀ (F := F)) Variants.none c none) Set.univ (bodyAt0 t) (fun _ =>
          iprop((rdat m c).Φ t.succ ∗ (rdat m c).owesAt () t.succ
            ∗ (∃ X, ⌜True⌝ ∗ owns (c : Thread nD τ) (ms0 t) fullShare X)
            ∗ (∃ X, ⌜True⌝ ∗ owns (c : Thread nD τ) (ms1 t) fullShare X)
            ∗ (∃ X, ⌜True⌝ ∗ owns (c : Thread nD τ) (ms2 t) fullShare X)
            ∗ (∃ X, ⌜True⌝ ∗ owns (c : Thread nD τ) (ms3 t) fullShare X)
            ∗ (∃ X, ⌜True⌝ ∗ owns (c : Thread nD τ) (ms4 t) fullShare X)
            ∗ (∃ X, ⌜True⌝ ∗ owns (c : Thread nD τ) (ms5 t) fullShare X)
            ∗ (∃ X, ⌜True⌝ ∗ owns (c : Thread nD τ) (ms6 t) fullShare X))) := by
  rw [show (rdat m c).Φ t.succ = (rdat m c).Φ t.castSucc from rfl,
    show (rdat m c).owesAt () t.succ = (rdat m c).owesAt () t.castSucc from rfl]
  by_cases h0 : t.val % 2 = 0
  · -- the first half of the contraction: the outputs' buffers are stored into, whatever they held
    iintro ⟨HΦ, Ho, H0, H1, H2, H3, H4, H5, H6⟩
    iapply ((kernelRunA c (grid0.coords t) (ms0 t) (hs0 t) (ms1 t) (hs1 t) (ms2 t) (hs2 t) (ms3 t) (hs3 t) (ms4 t) (hs4 t)
      (ms5 t) (hs5 t) (ms6 t) (hs6 t) ((hcondA t).mpr h0) (fun h => by have := (hcondB t).mp h; omega)
      (Y 0) (Y 1) (Y 2) (Y 3) (Y 4)).2.2 Set.univ _)
    isplitl [H0]; · iexact H0
    isplitl [H1]; · iexact H1
    isplitl [H2]; · iexact H2
    isplitl [H3]; · iexact H3
    isplitl [H4]; · iexact H4
    isplitl [H5]; · iexists (Y 5); iexact H5
    isplitl [H6]; · iexists (Y 6); iexact H6
    iintro ⟨H0, H1, H2, H3, H4, ⟨%f5, H5⟩, ⟨%f6, H6⟩⟩
    isplitl [HΦ]; · iexact HΦ
    isplitl [Ho]; · iexact Ho
    isplitl [H0]
    · iexists (Y 0); isplitr; · ipureintro; trivial
      iexact H0
    isplitl [H1]
    · iexists (Y 1); isplitr; · ipureintro; trivial
      iexact H1
    isplitl [H2]
    · iexists (Y 2); isplitr; · ipureintro; trivial
      iexact H2
    isplitl [H3]
    · iexists (Y 3); isplitr; · ipureintro; trivial
      iexact H3
    isplitl [H4]
    · iexists (Y 4); isplitr; · ipureintro; trivial
      iexact H4
    isplitl [H5]
    · iapply (owns_some c (ms5 t) _); iexact H5
    · iapply (owns_some c (ms6 t) _); iexact H6
  · -- the second half: the outputs' buffers are read at what they hold and stored into
    have h1 : t.val % 2 = 1 := by omega
    iintro ⟨HΦ, Ho, H0, H1, H2, H3, H4, H5, H6⟩
    iapply ((kernelRunB c (grid0.coords t) (ms0 t) (hs0 t) (ms1 t) (hs1 t) (ms2 t) (hs2 t) (ms3 t) (hs3 t) (ms4 t) (hs4 t)
      (ms5 t) (hs5 t) (ms6 t) (hs6 t) (fun h => h0 ((hcondA t).mp h)) ((hcondB t).mpr h1)
      (Y 0) (Y 1) (Y 2) (Y 3) (Y 4) (Y 5) (Y 6)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%f5, H5⟩, ⟨%f6, H6⟩⟩
    isplitl [HΦ]; · iexact HΦ
    isplitl [Ho]; · iexact Ho
    isplitl [H0]
    · iexists (Y 0); isplitr; · ipureintro; trivial
      iexact H0
    isplitl [H1]
    · iexists (Y 1); isplitr; · ipureintro; trivial
      iexact H1
    isplitl [H2]
    · iexists (Y 2); isplitr; · ipureintro; trivial
      iexact H2
    isplitl [H3]
    · iexists (Y 3); isplitr; · ipureintro; trivial
      iexact H3
    isplitl [H4]
    · iexists (Y 4); isplitr; · ipureintro; trivial
      iexact H4
    isplitl [H5]
    · iapply (owns_some c (ms5 t) _); iexact H5
    · iapply (owns_some c (ms6 t) _); iexact H6

/-- The library's body obligation of the relational data, at every point and at all contents the buffers may hold:
    what they may hold is never used. -/
theorem body_obligation (c : Dev nD) : (rdat m c).BodyObligation (defs₀ (F := F)) Variants.none () Set.univ := fun t Y _ => by
  rw [bigSep_W0, bigSep_W0]
  exact sound_body m c t Y

/-! ## The run and the frame -/

/-- The buffers the host lines after the region write: the two transposed results. -/
def T : Finset (Ref sig .tc) := {main_v0_0, main_v0_1}

/-- Each host line after the region writes its own result buffer only, one of the two. -/
theorem hT : ∀ ops ∈ ([hostOps1] : List (List (HloOp τ sig (Elt F)))), ∀ op ∈ ops, ∀ b : Ref sig .tc,
    Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  rcases hop with rfl | rfl
  · rw [StableHlo.unary_writes, Finset.mem_singleton] at hb
    obtain rfl := Proc.devRef_injective (τ := τ) _ hb
    decide
  · rw [StableHlo.unary_writes, Finset.mem_singleton] at hb
    obtain rfl := Proc.devRef_injective (τ := τ) _ hb
    decide

/-- At the compiled mesh, for any values, from any memory with zero counters: every weakly fair execution of @main
    terminates, every array of the pipeline ends at some contents the relational data allow (an input's at its entry
    contents), and every bypassing buffer that the later host lines do not write ends as the region found it. -/
theorem run_main : θ_run defs (onTc (τ := τ) (main (F := F))) (s₀ m ρ)
    (RDat.FramePostR cfg0 (rdat m) T (fun c b => V0 m c (Proc.devRef .tc b))) :=
  Pipeline.RDat.θ_run_frame_around_T cfgs (0 : Fin 1) launch0 defs₀ Variants.none (rdat m) T m ρ main
    (hbody := fun c => body_obligation m c) (hshare := share_eq m) (howed := fun _ _ => rfl)
    (V₀ := V0 m) (opss := [hostOps1]) (hsub := sfx_sub) (hfresh := sfx_fresh) (hkeep := sfx_keeps)
    (hT := hT) (hmain := hmain m Variants.none) (hA := A_eq m) (hΦ := fun _ _ => rfl)

/-- THE FRAME of the word-level program, at any float instance: @main terminates from any memory with zero counters
    and the five argument arrays end as launched. The three staged arguments are input windows' arrays, which the
    pipeline never writes; the two bias vectors bypass the region and no later host line writes them; and no host
    line before the region writes any of the five. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r (h : RDat.FramePostR cfg0 (rdat m) T (fun c b => V0 m c (Proc.devRef .tc b)) r) c =>
    ⟨(h.arr_in c 0 rfl).trans ((A_eq m c 0).trans (V_main_arg0 m c)),
     (h.arr_in c 1 rfl).trans ((A_eq m c 1).trans (V_main_arg1 m c)),
     ((h c).2 main_arg2 (Finset.mem_sdiff.mpr ⟨Pipeline.mem_restRefs_of main_arg2 (by decide) (by decide), by decide⟩)).trans
       (V_main_arg2 m c),
     (h.arr_in c 3 rfl).trans ((A_eq m c 3).trans (V_main_arg3 m c)),
     ((h c).2 main_arg4 (Finset.mem_sdiff.mpr ⟨Pipeline.mem_restRefs_of main_arg4 (by decide) (by decide), by decide⟩)).trans
       (V_main_arg4 m c)⟩) (run_main m ρ)

end Cert.Kernel.Hand

end
-- ==== Proof.Ideal.Runs.lean ====
/-
  The fused pair of linear layers, one grid point at a time: what the two conditionals of the body test, and the
  staging buffers the pipeline hands the body at a point.

  The grid is 8 row blocks by 2 halves of the contraction; point t has row block t / 2 and half t % 2. The first
  conditional (store the product plus the bias) is taken exactly on the first half, the second (add the product to
  what the buffer holds) exactly on the second half, so every point is in exactly one of two cases.
-/
import proofs.«141124_g6244882448852_cont_9to1_m_469_19_alg».proof.Proof.Gen.KernelIdeal.Frame
import proofs.«141124_g6244882448852_cont_9to1_m_469_19_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-- The first conditional holds exactly at the points of the first half of the contraction. -/
theorem hcondA : ∀ t : Fin cfg0.N, k0_cond1 (grid0.coords t) = 1#1 ↔ t.val % 2 = 0 :=
  (by decide +kernel : ∀ t : Fin grid0.N, k0_cond1 (grid0.coords t) = 1#1 ↔ t.val % 2 = 0)
/-- The second conditional holds exactly at the points of the second half. -/
theorem hcondB : ∀ t : Fin cfg0.N, k0_cond2 (grid0.coords t) = 1#1 ↔ t.val % 2 = 1 :=
  (by decide +kernel : ∀ t : Fin grid0.N, k0_cond2 (grid0.coords t) = 1#1 ↔ t.val % 2 = 1)

/-- Each window's current staging buffer at point t, spelled as the pipeline passes it to the body, and that it
    is a whole buffer. -/
abbrev ms0 (t : Fin cfg0.N) : Memref sig .tc .vmem S2560x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S81x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x81 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S320x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x320 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S81x2560 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S320x2560 .f32 := win0_6.stage (cfg0.slots t 6)
abbrev hs6 (t : Fin cfg0.N) : (ms6 t).IsWhole := hstage0_6 ((cfg0.slots t 6).cast nbuf0_6)

/-- One staging buffer of each output window, through which its contents are read back (the choice does not
    matter: the stores cover the block). -/
abbrev VO5 : View sig .tc .vmem S81x2560 .f32 := (Memref.whole cc0_stg5_0 : Memref sig .tc .vmem S81x2560 .f32).view
abbrev VO6 : View sig .tc .vmem S320x2560 .f32 := (Memref.whole cc0_stg6_0 : Memref sig .tc .vmem S320x2560 .f32).view

end Cert.KernelIdeal.Hand

end
-- ==== Proof.Ideal.RunA.lean ====
/-
  The body at a point of the first half of the contraction (the first conditional taken, the second not), on any
  whole staging buffers: the five inputs' buffers are read and handed back as they were, and each output's buffer
  ends with one whole-block store of "product plus bias" — recorded as the list of pieces the run leaves there.
-/
import proofs.«141124_g6244882448852_cont_9to1_m_469_19_alg».proof.Proof.Ideal.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces each output's staging buffer ends with in the first case, with the run that leaves them there:
    the inputs' buffers at any contents, the outputs' at anything (the body loads them before it stores, and
    never uses what it loaded). -/
noncomputable def kernelRunA (c : Dev nD) (i : grid0.Coords) (arg2 : Memref sig .tc .vmem S2560x512 .f32) (harg2 : arg2.IsWhole) (arg3 : Memref sig .tc .vmem S81x1024 .f32) (harg3 : arg3.IsWhole) (arg4 : Memref sig .tc .vmem S1x81 .f32) (harg4 : arg4.IsWhole) (arg5 : Memref sig .tc .vmem S320x1024 .f32) (harg5 : arg5.IsWhole) (arg6 : Memref sig .tc .vmem S1x320 .f32) (harg6 : arg6.IsWhole) (arg7 : Memref sig .tc .vmem S81x2560 .f32) (harg7 : arg7.IsWhole) (arg8 : Memref sig .tc .vmem S320x2560 .f32) (harg8 : arg8.IsWhole) (hc0 : k0_cond1 i = 1#1) (hc1 : ¬k0_cond2 i = 1#1)
    (x0 : Vec F S2560x512 .f32) (x1 : Vec F S81x1024 .f32) (x2 : Vec F S1x81 .f32) (x3 : Vec F S320x1024 .f32) (x4 : Vec F S1x320 .f32) :
    Σ' (L5 : List (View.Piece (Elt F) S81x2560 .f32)), { L6 : List (View.Piece (Elt F) S320x2560 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__fused_linear_kernel i arg2 harg2 arg3 harg3 arg4 harg4 arg5 harg5 arg6 harg6 arg7 harg7 arg8 harg8) K } := by
  refine ⟨?_, ?_, fun E K => ?run⟩
  case run =>
    simp only [cc0__fused_linear_kernel_eq_skeleton]; unfold cc0__fused_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact H6

end Cert.KernelIdeal.Hand

end
-- ==== Proof.Ideal.RunB.lean ====
/-
  The body at a point of the second half of the contraction (the first conditional not taken, the second taken), on
  any whole staging buffers: the inputs' buffers are read and handed back as they were; each output's buffer is read
  — it holds what the first half left — and ends with one whole-block store of "what it held plus the product".
-/
import proofs.«141124_g6244882448852_cont_9to1_m_469_19_alg».proof.Proof.Ideal.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces each output's staging buffer ends with in the second case, with the run that leaves them there:
    the inputs' buffers at any contents, the outputs' at the running contents `xo5`, `xo6` the body adds to. -/
noncomputable def kernelRunB (c : Dev nD) (i : grid0.Coords) (arg2 : Memref sig .tc .vmem S2560x512 .f32) (harg2 : arg2.IsWhole) (arg3 : Memref sig .tc .vmem S81x1024 .f32) (harg3 : arg3.IsWhole) (arg4 : Memref sig .tc .vmem S1x81 .f32) (harg4 : arg4.IsWhole) (arg5 : Memref sig .tc .vmem S320x1024 .f32) (harg5 : arg5.IsWhole) (arg6 : Memref sig .tc .vmem S1x320 .f32) (harg6 : arg6.IsWhole) (arg7 : Memref sig .tc .vmem S81x2560 .f32) (harg7 : arg7.IsWhole) (arg8 : Memref sig .tc .vmem S320x2560 .f32) (harg8 : arg8.IsWhole) (hc0 : ¬k0_cond1 i = 1#1) (hc1 : k0_cond2 i = 1#1)
    (x0 : Vec F S2560x512 .f32) (x1 : Vec F S81x1024 .f32) (x2 : Vec F S1x81 .f32) (x3 : Vec F S320x1024 .f32) (x4 : Vec F S1x320 .f32) (xo5 : Vec F S81x2560 .f32) (xo6 : Vec F S320x2560 .f32) :
    Σ' (L5 : List (View.Piece (Elt F) S81x2560 .f32)), { L6 : List (View.Piece (Elt F) S320x2560 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__fused_linear_kernel i arg2 harg2 arg3 harg3 arg4 harg4 arg5 harg5 arg6 harg6 arg7 harg7 arg8 harg8) K } := by
  refine ⟨?_, ?_, fun E K => ?run⟩
  case run =>
    simp only [cc0__fused_linear_kernel_eq_skeleton]; unfold cc0__fused_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact H6

end Cert.KernelIdeal.Hand

end
-- ==== Proof.Ideal.Pieces.lean ====
/-
  What each case of the body leaves in the two outputs' staging buffers, as closed terms of what the buffers held:
  the run records a list of stored pieces per output; each list is one store of the whole block, so reading it back
  gives the stored value itself — the product of the k-th 512-column slice of the weights with the block of x,
  plus the bias column (first half of the contraction) or plus what the buffer held (second half).
-/
import proofs.«141124_g6244882448852_cont_9to1_m_469_19_alg».proof.Proof.Ideal.RunB
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-- The 512-column slice of the classifier weights the body loads at grid coordinates `i`: columns
    512·(i 1) … 512·(i 1) + 511 of the staged 81 x 1024 array. -/
abbrev wSlice1 (i : grid0.Coords) (x1 : Vec F S81x1024 .f32) : Vec F S81x512 .f32 :=
  View.ld x1 (Rect.unit (s := S81x1024) (k0_off1 i) S81x512.size (k0_off1_inb i))
/-- The same slice of the box-regression weights (320 x 1024). -/
abbrev wSlice2 (i : grid0.Coords) (x3 : Vec F S320x1024 .f32) : Vec F S320x512 .f32 :=
  View.ld x3 (Rect.unit (s := S320x1024) (k0_off2 i) S320x512.size (k0_off2_inb i))

/-- In the first case output 5's pieces tile its block (one whole-block store), so they cover it. -/
theorem coverA_5 (c : Dev nD) (i : grid0.Coords) (arg2 : Memref sig .tc .vmem S2560x512 .f32) (harg2 : arg2.IsWhole) (arg3 : Memref sig .tc .vmem S81x1024 .f32) (harg3 : arg3.IsWhole) (arg4 : Memref sig .tc .vmem S1x81 .f32) (harg4 : arg4.IsWhole) (arg5 : Memref sig .tc .vmem S320x1024 .f32) (harg5 : arg5.IsWhole) (arg6 : Memref sig .tc .vmem S1x320 .f32) (harg6 : arg6.IsWhole) (arg7 : Memref sig .tc .vmem S81x2560 .f32) (harg7 : arg7.IsWhole) (arg8 : Memref sig .tc .vmem S320x2560 .f32) (harg8 : arg8.IsWhole) (hc0 : k0_cond1 i = 1#1) (hc1 : ¬k0_cond2 i = 1#1)
    (x0 : Vec F S2560x512 .f32) (x1 : Vec F S81x1024 .f32) (x2 : Vec F S1x81 .f32) (x3 : Vec F S320x1024 .f32) (x4 : Vec F S1x320 .f32) (y : S81x2560.Idx) :
    ∃ pc ∈ (kernelRunA c i arg2 harg2 arg3 harg3 arg4 harg4 arg5 harg5 arg6 harg6 arg7 harg7 arg8 harg8 hc0 hc1 x0 x1 x2 x3 x4).1, y ∈ pc.1.set :=
  View.cover_of_tiledL (kernelRunA c i arg2 harg2 arg3 harg3 arg4 harg4 arg5 harg5 arg6 harg6 arg7 harg7 arg8 harg8 hc0 hc1 x0 x1 x2 x3 x4).1 S81x2560.size (by sl_kernel_rfl) y

/-- What the first case leaves in output 5's staging buffer: its pieces read back. -/
def outA_5 (c : Dev nD) (i : grid0.Coords) (arg2 : Memref sig .tc .vmem S2560x512 .f32) (harg2 : arg2.IsWhole) (arg3 : Memref sig .tc .vmem S81x1024 .f32) (harg3 : arg3.IsWhole) (arg4 : Memref sig .tc .vmem S1x81 .f32) (harg4 : arg4.IsWhole) (arg5 : Memref sig .tc .vmem S320x1024 .f32) (harg5 : arg5.IsWhole) (arg6 : Memref sig .tc .vmem S1x320 .f32) (harg6 : arg6.IsWhole) (arg7 : Memref sig .tc .vmem S81x2560 .f32) (harg7 : arg7.IsWhole) (arg8 : Memref sig .tc .vmem S320x2560 .f32) (harg8 : arg8.IsWhole) (hc0 : k0_cond1 i = 1#1) (hc1 : ¬k0_cond2 i = 1#1)
    (x0 : Vec F S2560x512 .f32) (x1 : Vec F S81x1024 .f32) (x2 : Vec F S1x81 .f32) (x3 : Vec F S320x1024 .f32) (x4 : Vec F S1x320 .f32) : Vec F S81x2560 .f32 :=
  VO5.read (Elt F) (VO5.writes (Elt F) VO5.junk (kernelRunA c i arg2 harg2 arg3 harg3 arg4 harg4 arg5 harg5 arg6 harg6 arg7 harg7 arg8 harg8 hc0 hc1 x0 x1 x2 x3 x4).1)

/-- In the first case output 6's pieces tile its block (one whole-block store), so they cover it. -/
theorem coverA_6 (c : Dev nD) (i : grid0.Coords) (arg2 : Memref sig .tc .vmem S2560x512 .f32) (harg2 : arg2.IsWhole) (arg3 : Memref sig .tc .vmem S81x1024 .f32) (harg3 : arg3.IsWhole) (arg4 : Memref sig .tc .vmem S1x81 .f32) (harg4 : arg4.IsWhole) (arg5 : Memref sig .tc .vmem S320x1024 .f32) (harg5 : arg5.IsWhole) (arg6 : Memref sig .tc .vmem S1x320 .f32) (harg6 : arg6.IsWhole) (arg7 : Memref sig .tc .vmem S81x2560 .f32) (harg7 : arg7.IsWhole) (arg8 : Memref sig .tc .vmem S320x2560 .f32) (harg8 : arg8.IsWhole) (hc0 : k0_cond1 i = 1#1) (hc1 : ¬k0_cond2 i = 1#1)
    (x0 : Vec F S2560x512 .f32) (x1 : Vec F S81x1024 .f32) (x2 : Vec F S1x81 .f32) (x3 : Vec F S320x1024 .f32) (x4 : Vec F S1x320 .f32) (y : S320x2560.Idx) :
    ∃ pc ∈ (kernelRunA c i arg2 harg2 arg3 harg3 arg4 harg4 arg5 harg5 arg6 harg6 arg7 harg7 arg8 harg8 hc0 hc1 x0 x1 x2 x3 x4).2.1, y ∈ pc.1.set :=
  View.cover_of_tiledL (kernelRunA c i arg2 harg2 arg3 harg3 arg4 harg4 arg5 harg5 arg6 harg6 arg7 harg7 arg8 harg8 hc0 hc1 x0 x1 x2 x3 x4).2.1 S320x2560.size (by sl_kernel_rfl) y

/-- What the first case leaves in output 6's staging buffer: its pieces read back. -/
def outA_6 (c : Dev nD) (i : grid0.Coords) (arg2 : Memref sig .tc .vmem S2560x512 .f32) (harg2 : arg2.IsWhole) (arg3 : Memref sig .tc .vmem S81x1024 .f32) (harg3 : arg3.IsWhole) (arg4 : Memref sig .tc .vmem S1x81 .f32) (harg4 : arg4.IsWhole) (arg5 : Memref sig .tc .vmem S320x1024 .f32) (harg5 : arg5.IsWhole) (arg6 : Memref sig .tc .vmem S1x320 .f32) (harg6 : arg6.IsWhole) (arg7 : Memref sig .tc .vmem S81x2560 .f32) (harg7 : arg7.IsWhole) (arg8 : Memref sig .tc .vmem S320x2560 .f32) (harg8 : arg8.IsWhole) (hc0 : k0_cond1 i = 1#1) (hc1 : ¬k0_cond2 i = 1#1)
    (x0 : Vec F S2560x512 .f32) (x1 : Vec F S81x1024 .f32) (x2 : Vec F S1x81 .f32) (x3 : Vec F S320x1024 .f32) (x4 : Vec F S1x320 .f32) : Vec F S320x2560 .f32 :=
  VO6.read (Elt F) (VO6.writes (Elt F) VO6.junk (kernelRunA c i arg2 harg2 arg3 harg3 arg4 harg4 arg5 harg5 arg6 harg6 arg7 harg7 arg8 harg8 hc0 hc1 x0 x1 x2 x3 x4).2.1)

/-- In the second case output 5's pieces tile its block (one whole-block store), so they cover it. -/
theorem coverB_5 (c : Dev nD) (i : grid0.Coords) (arg2 : Memref sig .tc .vmem S2560x512 .f32) (harg2 : arg2.IsWhole) (arg3 : Memref sig .tc .vmem S81x1024 .f32) (harg3 : arg3.IsWhole) (arg4 : Memref sig .tc .vmem S1x81 .f32) (harg4 : arg4.IsWhole) (arg5 : Memref sig .tc .vmem S320x1024 .f32) (harg5 : arg5.IsWhole) (arg6 : Memref sig .tc .vmem S1x320 .f32) (harg6 : arg6.IsWhole) (arg7 : Memref sig .tc .vmem S81x2560 .f32) (harg7 : arg7.IsWhole) (arg8 : Memref sig .tc .vmem S320x2560 .f32) (harg8 : arg8.IsWhole) (hc0 : ¬k0_cond1 i = 1#1) (hc1 : k0_cond2 i = 1#1)
    (x0 : Vec F S2560x512 .f32) (x1 : Vec F S81x1024 .f32) (x2 : Vec F S1x81 .f32) (x3 : Vec F S320x1024 .f32) (x4 : Vec F S1x320 .f32) (xo5 : Vec F S81x2560 .f32) (xo6 : Vec F S320x2560 .f32) (y : S81x2560.Idx) :
    ∃ pc ∈ (kernelRunB c i arg2 harg2 arg3 harg3 arg4 harg4 arg5 harg5 arg6 harg6 arg7 harg7 arg8 harg8 hc0 hc1 x0 x1 x2 x3 x4 xo5 xo6).1, y ∈ pc.1.set :=
  View.cover_of_tiledL (kernelRunB c i arg2 harg2 arg3 harg3 arg4 harg4 arg5 harg5 arg6 harg6 arg7 harg7 arg8 harg8 hc0 hc1 x0 x1 x2 x3 x4 xo5 xo6).1 S81x2560.size (by sl_kernel_rfl) y

/-- What the second case leaves in output 5's staging buffer: its pieces read back. -/
def outB_5 (c : Dev nD) (i : grid0.Coords) (arg2 : Memref sig .tc .vmem S2560x512 .f32) (harg2 : arg2.IsWhole) (arg3 : Memref sig .tc .vmem S81x1024 .f32) (harg3 : arg3.IsWhole) (arg4 : Memref sig .tc .vmem S1x81 .f32) (harg4 : arg4.IsWhole) (arg5 : Memref sig .tc .vmem S320x1024 .f32) (harg5 : arg5.IsWhole) (arg6 : Memref sig .tc .vmem S1x320 .f32) (harg6 : arg6.IsWhole) (arg7 : Memref sig .tc .vmem S81x2560 .f32) (harg7 : arg7.IsWhole) (arg8 : Memref sig .tc .vmem S320x2560 .f32) (harg8 : arg8.IsWhole) (hc0 : ¬k0_cond1 i = 1#1) (hc1 : k0_cond2 i = 1#1)
    (x0 : Vec F S2560x512 .f32) (x1 : Vec F S81x1024 .f32) (x2 : Vec F S1x81 .f32) (x3 : Vec F S320x1024 .f32) (x4 : Vec F S1x320 .f32) (xo5 : Vec F S81x2560 .f32) (xo6 : Vec F S320x2560 .f32) : Vec F S81x2560 .f32 :=
  VO5.read (Elt F) (VO5.writes (Elt F) VO5.junk (kernelRunB c i arg2 harg2 arg3 harg3 arg4 harg4 arg5 harg5 arg6 harg6 arg7 harg7 arg8 harg8 hc0 hc1 x0 x1 x2 x3 x4 xo5 xo6).1)

/-- In the second case output 6's pieces tile its block (one whole-block store), so they cover it. -/
theorem coverB_6 (c : Dev nD) (i : grid0.Coords) (arg2 : Memref sig .tc .vmem S2560x512 .f32) (harg2 : arg2.IsWhole) (arg3 : Memref sig .tc .vmem S81x1024 .f32) (harg3 : arg3.IsWhole) (arg4 : Memref sig .tc .vmem S1x81 .f32) (harg4 : arg4.IsWhole) (arg5 : Memref sig .tc .vmem S320x1024 .f32) (harg5 : arg5.IsWhole) (arg6 : Memref sig .tc .vmem S1x320 .f32) (harg6 : arg6.IsWhole) (arg7 : Memref sig .tc .vmem S81x2560 .f32) (harg7 : arg7.IsWhole) (arg8 : Memref sig .tc .vmem S320x2560 .f32) (harg8 : arg8.IsWhole) (hc0 : ¬k0_cond1 i = 1#1) (hc1 : k0_cond2 i = 1#1)
    (x0 : Vec F S2560x512 .f32) (x1 : Vec F S81x1024 .f32) (x2 : Vec F S1x81 .f32) (x3 : Vec F S320x1024 .f32) (x4 : Vec F S1x320 .f32) (xo5 : Vec F S81x2560 .f32) (xo6 : Vec F S320x2560 .f32) (y : S320x2560.Idx) :
    ∃ pc ∈ (kernelRunB c i arg2 harg2 arg3 harg3 arg4 harg4 arg5 harg5 arg6 harg6 arg7 harg7 arg8 harg8 hc0 hc1 x0 x1 x2 x3 x4 xo5 xo6).2.1, y ∈ pc.1.set :=
  View.cover_of_tiledL (kernelRunB c i arg2 harg2 arg3 harg3 arg4 harg4 arg5 harg5 arg6 harg6 arg7 harg7 arg8 harg8 hc0 hc1 x0 x1 x2 x3 x4 xo5 xo6).2.1 S320x2560.size (by sl_kernel_rfl) y

/-- What the second case leaves in output 6's staging buffer: its pieces read back. -/
def outB_6 (c : Dev nD) (i : grid0.Coords) (arg2 : Memref sig .tc .vmem S2560x512 .f32) (harg2 : arg2.IsWhole) (arg3 : Memref sig .tc .vmem S81x1024 .f32) (harg3 : arg3.IsWhole) (arg4 : Memref sig .tc .vmem S1x81 .f32) (harg4 : arg4.IsWhole) (arg5 : Memref sig .tc .vmem S320x1024 .f32) (harg5 : arg5.IsWhole) (arg6 : Memref sig .tc .vmem S1x320 .f32) (harg6 : arg6.IsWhole) (arg7 : Memref sig .tc .vmem S81x2560 .f32) (harg7 : arg7.IsWhole) (arg8 : Memref sig .tc .vmem S320x2560 .f32) (harg8 : arg8.IsWhole) (hc0 : ¬k0_cond1 i = 1#1) (hc1 : k0_cond2 i = 1#1)
    (x0 : Vec F S2560x512 .f32) (x1 : Vec F S81x1024 .f32) (x2 : Vec F S1x81 .f32) (x3 : Vec F S320x1024 .f32) (x4 : Vec F S1x320 .f32) (xo5 : Vec F S81x2560 .f32) (xo6 : Vec F S320x2560 .f32) : Vec F S320x2560 .f32 :=
  VO6.read (Elt F) (VO6.writes (Elt F) VO6.junk (kernelRunB c i arg2 harg2 arg3 harg3 arg4 harg4 arg5 harg5 arg6 harg6 arg7 harg7 arg8 harg8 hc0 hc1 x0 x1 x2 x3 x4 xo5 xo6).2.1)

/-! ## The read-back contents are the payloads -/

/-- ... which is the product of the weights' slice with the block of x, plus the bias column, as one term of the
    buffers' contents. -/
theorem outA_5_eq (c : Dev nD) (i : grid0.Coords) (arg2 : Memref sig .tc .vmem S2560x512 .f32) (harg2 : arg2.IsWhole) (arg3 : Memref sig .tc .vmem S81x1024 .f32) (harg3 : arg3.IsWhole) (arg4 : Memref sig .tc .vmem S1x81 .f32) (harg4 : arg4.IsWhole) (arg5 : Memref sig .tc .vmem S320x1024 .f32) (harg5 : arg5.IsWhole) (arg6 : Memref sig .tc .vmem S1x320 .f32) (harg6 : arg6.IsWhole) (arg7 : Memref sig .tc .vmem S81x2560 .f32) (harg7 : arg7.IsWhole) (arg8 : Memref sig .tc .vmem S320x2560 .f32) (harg8 : arg8.IsWhole) (hc0 : k0_cond1 i = 1#1) (hc1 : ¬k0_cond2 i = 1#1)
    (x0 : Vec F S2560x512 .f32) (x1 : Vec F S81x1024 .f32) (x2 : Vec F S1x81 .f32) (x3 : Vec F S320x1024 .f32) (x4 : Vec F S1x320 .f32) :
    outA_5 c i arg2 harg2 arg3 harg3 arg4 harg4 arg5 harg5 arg6 harg6 arg7 harg7 arg8 harg8 hc0 hc1 x0 x1 x2 x3 x4 = k0_pay3 x0 (wSlice1 i x1) x2 := by
  have hz : (![0, 0] : Fin 2 → Nat) = fun _ => 0 := funext fun a => by fin_cases a <;> rfl
  unfold outA_5
  rw [View.read_writes_eq_canon _ _ _ (coverA_5 c i arg2 harg2 arg3 harg3 arg4 harg4 arg5 harg5 arg6 harg6 arg7 harg7 arg8 harg8 hc0 hc1 x0 x1 x2 x3 x4)]
  unfold kernelRunA; dsimp only; sl_unfold_words
  rw [View.canon_unit_zero hz]
  simp only [View.readAt_eq_ld, harg2.read_unread, harg3.read_unread, harg4.read_unread,
    View.ld_unit_zero (S := S2560x512) hz, View.ld_unit_zero (S := S1x81) hz]
  rfl

/-- ... which is the product of the weights' slice with the block of x, plus the bias column, as one term of the
    buffers' contents. -/
theorem outA_6_eq (c : Dev nD) (i : grid0.Coords) (arg2 : Memref sig .tc .vmem S2560x512 .f32) (harg2 : arg2.IsWhole) (arg3 : Memref sig .tc .vmem S81x1024 .f32) (harg3 : arg3.IsWhole) (arg4 : Memref sig .tc .vmem S1x81 .f32) (harg4 : arg4.IsWhole) (arg5 : Memref sig .tc .vmem S320x1024 .f32) (harg5 : arg5.IsWhole) (arg6 : Memref sig .tc .vmem S1x320 .f32) (harg6 : arg6.IsWhole) (arg7 : Memref sig .tc .vmem S81x2560 .f32) (harg7 : arg7.IsWhole) (arg8 : Memref sig .tc .vmem S320x2560 .f32) (harg8 : arg8.IsWhole) (hc0 : k0_cond1 i = 1#1) (hc1 : ¬k0_cond2 i = 1#1)
    (x0 : Vec F S2560x512 .f32) (x1 : Vec F S81x1024 .f32) (x2 : Vec F S1x81 .f32) (x3 : Vec F S320x1024 .f32) (x4 : Vec F S1x320 .f32) :
    outA_6 c i arg2 harg2 arg3 harg3 arg4 harg4 arg5 harg5 arg6 harg6 arg7 harg7 arg8 harg8 hc0 hc1 x0 x1 x2 x3 x4 = k0_pay4 x0 (wSlice2 i x3) x4 := by
  have hz : (![0, 0] : Fin 2 → Nat) = fun _ => 0 := funext fun a => by fin_cases a <;> rfl
  unfold outA_6
  rw [View.read_writes_eq_canon _ _ _ (coverA_6 c i arg2 harg2 arg3 harg3 arg4 harg4 arg5 harg5 arg6 harg6 arg7 harg7 arg8 harg8 hc0 hc1 x0 x1 x2 x3 x4)]
  unfold kernelRunA; dsimp only; sl_unfold_words
  rw [View.canon_unit_zero hz]
  simp only [View.readAt_eq_ld, harg2.read_unread, harg5.read_unread, harg6.read_unread,
    View.ld_unit_zero (S := S2560x512) hz, View.ld_unit_zero (S := S1x320) hz]
  rfl

/-- ... which is what the buffer held plus the product of the weights' slice with the block of x. -/
theorem outB_5_eq (c : Dev nD) (i : grid0.Coords) (arg2 : Memref sig .tc .vmem S2560x512 .f32) (harg2 : arg2.IsWhole) (arg3 : Memref sig .tc .vmem S81x1024 .f32) (harg3 : arg3.IsWhole) (arg4 : Memref sig .tc .vmem S1x81 .f32) (harg4 : arg4.IsWhole) (arg5 : Memref sig .tc .vmem S320x1024 .f32) (harg5 : arg5.IsWhole) (arg6 : Memref sig .tc .vmem S1x320 .f32) (harg6 : arg6.IsWhole) (arg7 : Memref sig .tc .vmem S81x2560 .f32) (harg7 : arg7.IsWhole) (arg8 : Memref sig .tc .vmem S320x2560 .f32) (harg8 : arg8.IsWhole) (hc0 : ¬k0_cond1 i = 1#1) (hc1 : k0_cond2 i = 1#1)
    (x0 : Vec F S2560x512 .f32) (x1 : Vec F S81x1024 .f32) (x2 : Vec F S1x81 .f32) (x3 : Vec F S320x1024 .f32) (x4 : Vec F S1x320 .f32) (xo5 : Vec F S81x2560 .f32) (xo6 : Vec F S320x2560 .f32) :
    outB_5 c i arg2 harg2 arg3 harg3 arg4 harg4 arg5 harg5 arg6 harg6 arg7 harg7 arg8 harg8 hc0 hc1 x0 x1 x2 x3 x4 xo5 xo6 = k0_pay5 x0 (wSlice1 i x1) xo5 := by
  have hz : (![0, 0] : Fin 2 → Nat) = fun _ => 0 := funext fun a => by fin_cases a <;> rfl
  unfold outB_5
  rw [View.read_writes_eq_canon _ _ _ (coverB_5 c i arg2 harg2 arg3 harg3 arg4 harg4 arg5 harg5 arg6 harg6 arg7 harg7 arg8 harg8 hc0 hc1 x0 x1 x2 x3 x4 xo5 xo6)]
  unfold kernelRunB; dsimp only; sl_unfold_words
  rw [View.canon_unit_zero hz]
  simp only [View.readAt_eq_ld, harg2.read_unread, harg3.read_unread, harg7.read_unread,
    View.ld_unit_zero (S := S2560x512) hz, View.ld_unit_zero (S := S81x2560) hz]
  rfl

/-- ... which is what the buffer held plus the product of the weights' slice with the block of x. -/
theorem outB_6_eq (c : Dev nD) (i : grid0.Coords) (arg2 : Memref sig .tc .vmem S2560x512 .f32) (harg2 : arg2.IsWhole) (arg3 : Memref sig .tc .vmem S81x1024 .f32) (harg3 : arg3.IsWhole) (arg4 : Memref sig .tc .vmem S1x81 .f32) (harg4 : arg4.IsWhole) (arg5 : Memref sig .tc .vmem S320x1024 .f32) (harg5 : arg5.IsWhole) (arg6 : Memref sig .tc .vmem S1x320 .f32) (harg6 : arg6.IsWhole) (arg7 : Memref sig .tc .vmem S81x2560 .f32) (harg7 : arg7.IsWhole) (arg8 : Memref sig .tc .vmem S320x2560 .f32) (harg8 : arg8.IsWhole) (hc0 : ¬k0_cond1 i = 1#1) (hc1 : k0_cond2 i = 1#1)
    (x0 : Vec F S2560x512 .f32) (x1 : Vec F S81x1024 .f32) (x2 : Vec F S1x81 .f32) (x3 : Vec F S320x1024 .f32) (x4 : Vec F S1x320 .f32) (xo5 : Vec F S81x2560 .f32) (xo6 : Vec F S320x2560 .f32) :
    outB_6 c i arg2 harg2 arg3 harg3 arg4 harg4 arg5 harg5 arg6 harg6 arg7 harg7 arg8 harg8 hc0 hc1 x0 x1 x2 x3 x4 xo5 xo6 = k0_pay6 x0 (wSlice2 i x3) xo6 := by
  have hz : (![0, 0] : Fin 2 → Nat) = fun _ => 0 := funext fun a => by fin_cases a <;> rfl
  unfold outB_6
  rw [View.read_writes_eq_canon _ _ _ (coverB_6 c i arg2 harg2 arg3 harg3 arg4 harg4 arg5 harg5 arg6 harg6 arg7 harg7 arg8 harg8 hc0 hc1 x0 x1 x2 x3 x4 xo5 xo6)]
  unfold kernelRunB; dsimp only; sl_unfold_words
  rw [View.canon_unit_zero hz]
  simp only [View.readAt_eq_ld, harg2.read_unread, harg5.read_unread, harg8.read_unread,
    View.ld_unit_zero (S := S2560x512) hz, View.ld_unit_zero (S := S320x2560) hz]
  rfl

end Cert.KernelIdeal.Hand

end
-- ==== Proof.Ideal.Geometry.lean ====
/-
  The grid's geometry, decided once over its 16 points. Point t has row block t / 2 and contraction half t % 2.
  The row blocks are 2560 rows of the 20000; the last one (t / 2 = 7) holds 2080 rows inside the array, so the
  transfers of x's block, and of the two transposed outputs' blocks, are cut there: x's on its row axis, an
  output's on its column axis, both to the same count `rowsIn t`.
-/
import proofs.«141124_g6244882448852_cont_9to1_m_469_19_alg».proof.Proof.Ideal.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-- How many rows of x's block at point t lie inside the array (2560, but 2080 in the last row block). -/
abbrev rowsIn (t : ℕ) : ℕ := min 2560 (20000 - 2560 * (t / 2))

/-- The part of x's block the fetch at point t moves: `rowsIn t` rows by all 512 columns. -/
theorem xsize_x : ∀ t : Fin cfg0.N, win0_0.xsize (grid0.coords t) 0 = rowsIn t.val ∧ win0_0.xsize (grid0.coords t) 1 = 512 :=
  (by decide +kernel : ∀ t : Fin grid0.N, win0_0.xsize (grid0.coords t) 0 = rowsIn t.val ∧ win0_0.xsize (grid0.coords t) 1 = 512)
/-- The part of the scores' block the write-back at point t moves: all 81 rows by `rowsIn t` columns. -/
theorem xsize_s : ∀ t : Fin cfg0.N, win0_5.xsize (grid0.coords t) 0 = 81 ∧ win0_5.xsize (grid0.coords t) 1 = rowsIn t.val :=
  (by decide +kernel : ∀ t : Fin grid0.N, win0_5.xsize (grid0.coords t) 0 = 81 ∧ win0_5.xsize (grid0.coords t) 1 = rowsIn t.val)
/-- The same for the deltas' block: all 320 rows by `rowsIn t` columns. -/
theorem xsize_d : ∀ t : Fin cfg0.N, win0_6.xsize (grid0.coords t) 0 = 320 ∧ win0_6.xsize (grid0.coords t) 1 = rowsIn t.val :=
  (by decide +kernel : ∀ t : Fin grid0.N, win0_6.xsize (grid0.coords t) 0 = 320 ∧ win0_6.xsize (grid0.coords t) 1 = rowsIn t.val)

/-- The block indices: x's block is (row block, half); an output's is (0, row block). -/
theorem index_facts : ∀ t : Fin cfg0.N, win0_0.index t 0 = t.val / 2 ∧ win0_0.index t 1 = t.val % 2
    ∧ win0_5.index t 0 = 0 ∧ win0_5.index t 1 = t.val / 2 ∧ win0_6.index t 0 = 0 ∧ win0_6.index t 1 = t.val / 2 :=
  (by decide +kernel : ∀ t : Fin grid0.N, win0_0.index t 0 = t.val / 2 ∧ win0_0.index t 1 = t.val % 2
    ∧ win0_5.index t 0 = 0 ∧ win0_5.index t 1 = t.val / 2 ∧ win0_6.index t 0 = 0 ∧ win0_6.index t 1 = t.val / 2)

/-- The weights' slice the body loads starts at column 512 · (t % 2), row 0. -/
theorem off_facts : ∀ t : Fin cfg0.N, k0_off1 (grid0.coords t) 0 = 0 ∧ k0_off1 (grid0.coords t) 1 = 512 * (t.val % 2)
    ∧ k0_off2 (grid0.coords t) 0 = 0 ∧ k0_off2 (grid0.coords t) 1 = 512 * (t.val % 2) :=
  (by decide +kernel : ∀ t : Fin grid0.N, k0_off1 (grid0.coords t) 0 = 0 ∧ k0_off1 (grid0.coords t) 1 = 512 * (t.val % 2)
    ∧ k0_off2 (grid0.coords t) 0 = 0 ∧ k0_off2 (grid0.coords t) 1 = 512 * (t.val % 2))

/-- The body stores into both outputs at every point (each point is in one of the two cases): no point is idle. -/
theorem live_out : ∀ t : Fin cfg0.N, cfg0.idle 5 (grid0.coords t) = false ∧ cfg0.idle 6 (grid0.coords t) = false :=
  (by decide +kernel : ∀ t : Fin grid0.N, idle0 5 (grid0.coords t) = false ∧ idle0 6 (grid0.coords t) = false)
/-- An output's block is never fetched. -/
theorem nofetch_out : ∀ t : Fin cfg0.N, (cfg0.win 5).fetch t = false ∧ (cfg0.win 6).fetch t = false :=
  (by decide +kernel : ∀ t : Fin grid0.N, win0_5.fetch t = false ∧ win0_6.fetch t = false)

/-- The two points of one row block cut alike. -/
theorem rowsIn_pred (t : ℕ) (h : t % 2 = 1) : rowsIn (t - 1) = rowsIn t := by
  unfold rowsIn; rw [show (t - 1) / 2 = t / 2 by omega]

end Cert.KernelIdeal.Hand

end
-- ==== Proof.Ideal.Data.lean ====
/-
  The proof data of the idealized kernel's one pipeline.

  After the body at point t the five inputs' staging buffers hold their blocks — x's block filled out past the
  array's end by zero words, which nothing reads — and the two outputs' buffers hold the running values: at a
  point of the first half of the contraction the product of the weights' first 512 columns with the block of x
  plus the bias column; at a point of the second half that plus the product over the other 512 columns. The
  running values are stated over x's block FILLED OUT WITH ZEROS; what the body really finds past the array's end
  is arbitrary, and only the entries a transfer moves are ever compared.
-/
import proofs.«141124_g6244882448852_cont_9to1_m_469_19_alg».proof.Proof.Ideal.Pieces
import proofs.«141124_g6244882448852_cont_9to1_m_469_19_alg».proof.Proof.Ideal.Geometry

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks, under their literal types -/

/-- x's block at point t: its part inside the array (2560 rows, 2080 in the last row block, by 512 columns). -/
def xblk (c : Dev nD) (t : Fin cfg0.N) : (win0_0.xblock (grid0.coords t)).Idx → Elt F .f32 := iblk m c 0 t
/-- The same filled out to the whole 2560 x 512 block by zero words. -/
def xfull (c : Dev nD) (t : Fin cfg0.N) : Vec F S2560x512 .f32 :=
  win0_0.fill (grid0.coords t) (fun _ => Scalar.ofBits .f32 0#32) (xblk m c t)
/-- The classifier weights (the whole 81 x 1024 array is one block), -/
abbrev wcls (c : Dev nD) (t : Fin cfg0.N) : Vec F S81x1024 .f32 := iblk m c 1 t
/-- its bias as a 1 x 81 row, -/
abbrev bcls (c : Dev nD) (t : Fin cfg0.N) : Vec F S1x81 .f32 := iblk m c 2 t
/-- the box-regression weights (320 x 1024) -/
abbrev wbox (c : Dev nD) (t : Fin cfg0.N) : Vec F S320x1024 .f32 := iblk m c 3 t
/-- and their bias as a 1 x 320 row. -/
abbrev bbox (c : Dev nD) (t : Fin cfg0.N) : Vec F S1x320 .f32 := iblk m c 4 t

/-! ## What the outputs' buffers hold after each point -/

/-- After a point of the first half: product over the first 512 columns, plus the bias. -/
def firstHalf (c : Dev nD) (t : Fin cfg0.N) : Vec F S81x2560 .f32 × Vec F S320x2560 .f32 :=
  (k0_pay3 (xfull m c t) (wSlice1 (grid0.coords t) (wcls m c t)) (bcls m c t),
   k0_pay4 (xfull m c t) (wSlice2 (grid0.coords t) (wbox m c t)) (bbox m c t))
/-- After a point of the second half: what the point before left, plus the product over the other 512 columns. -/
def secondHalf (c : Dev nD) (t : Fin cfg0.N) (prev : Vec F S81x2560 .f32 × Vec F S320x2560 .f32) :
    Vec F S81x2560 .f32 × Vec F S320x2560 .f32 :=
  (k0_pay5 (xfull m c t) (wSlice1 (grid0.coords t) (wcls m c t)) prev.1,
   k0_pay6 (xfull m c t) (wSlice2 (grid0.coords t) (wbox m c t)) prev.2)

/-- The accumulation, position by position. -/
def outsAt (c : Dev nD) : (n : ℕ) → n < cfg0.N → Vec F S81x2560 .f32 × Vec F S320x2560 .f32
  | 0, hn => firstHalf m c ⟨0, hn⟩
  | n + 1, hn =>
    if (n + 1) % 2 = 0 then firstHalf m c ⟨n + 1, hn⟩
    else secondHalf m c ⟨n + 1, hn⟩ (outsAt c n (Nat.lt_of_succ_lt hn))

theorem outsAt_A (c : Dev nD) (t : Fin cfg0.N) (h0 : t.val % 2 = 0) : outsAt m c t.val t.isLt = firstHalf m c t := by
  obtain ⟨n, hn⟩ := t
  cases n with
  | zero => rfl
  | succ n => exact (if_pos h0).trans rfl

theorem outsAt_B (c : Dev nD) (t : Fin cfg0.N) (h0 : t.val % 2 = 1) :
    outsAt m c t.val t.isLt = secondHalf m c t (outsAt m c (t.val - 1) (Nat.lt_of_le_of_lt (Nat.sub_le _ _) t.isLt)) := by
  obtain ⟨n, hn⟩ := t
  cases n with
  | zero => exact absurd h0 (by dsimp only; omega)
  | succ n => exact (if_neg (by dsimp only at h0; omega)).trans rfl

/-! ## The proof data -/

/-- The arrays as the region finds them; after the body each buffer at the contents above; the invariant the
    scoped rest's; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
    | ⟨6, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xfull m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outsAt m c t.val t.isLt).1 := by dsimp only [dats]
theorem after_6 (c : Dev nD) (t : Fin cfg0.N) : (dats m 0 c).after 6 t = (outsAt m c t.val t.isLt).2 := by dsimp only [dats]

/-! ## What the body finds -/

/-- x's buffer, fetched at every point: its block on the rows inside the array, anything past them. -/
theorem before_0 (c : Dev nD) (t : Fin cfg0.N) (d) :
    (dats m 0 c).before 0 t d = win0_0.fill (grid0.coords t) d (xblk m c t) := by
  unfold Dat.before; rw [if_pos (fetch0_0 t)]
  unfold Dat.fetched Dat.blockOf xblk iblk; rw [A_eq]

/-- The weights' and biases' buffers hold their blocks at every point, fetched there or not. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- At a point of the first half an output's buffer holds nothing anyone names: the run starts there, or the point
    before wrote the block back. -/
theorem before_5_A (c : Dev nD) (t : Fin cfg0.N) (h0 : t.val % 2 = 0) (d) : (dats m 0 c).before 5 t d = d := by
  unfold Dat.before
  rw [if_neg (by rw [(nofetch_out t).1]; exact Bool.false_ne_true)]
  by_cases ht : t.val = 0
  · rw [if_pos ht]
  · rw [if_neg ht]; dsimp only
    rw [if_pos ((flush0_5 _).mpr (by dsimp only; omega))]
theorem before_6_A (c : Dev nD) (t : Fin cfg0.N) (h0 : t.val % 2 = 0) (d) : (dats m 0 c).before 6 t d = d := by
  unfold Dat.before
  rw [if_neg (by rw [(nofetch_out t).2]; exact Bool.false_ne_true)]
  by_cases ht : t.val = 0
  · rw [if_pos ht]
  · rw [if_neg ht]; dsimp only
    rw [if_pos ((flush0_6 _).mpr (by dsimp only; omega))]

/-- At a point of the second half it holds what the body left at the point before, on the entries that point's
    transfer would move, and anything elsewhere. -/
theorem before_5_B (c : Dev nD) (t : Fin cfg0.N) (h0 : t.val % 2 = 1) (d) :
    (dats m 0 c).before 5 t d
      = win0_5.fill (grid0.coords ⟨t.val - 1, Nat.lt_of_le_of_lt (Nat.sub_le _ _) t.isLt⟩) d
          (win0_5.cut (grid0.coords ⟨t.val - 1, Nat.lt_of_le_of_lt (Nat.sub_le _ _) t.isLt⟩)
            (outsAt m c (t.val - 1) (Nat.lt_of_le_of_lt (Nat.sub_le _ _) t.isLt)).1) := by
  rw [Dat.before_of_pos _ 5 t (by omega) (nofetch_out t).1,
    if_neg (by rw [Bool.not_eq_true]; exact Bool.eq_false_iff.mpr fun h => by have := (flush0_5 _).mp h; dsimp only at this; omega)]
  unfold Dat.left Dat.kept; rw [after_5]
  split
  · next h => exact absurd (h.symm.trans (live_out _).1) (by decide)
  · rfl
theorem before_6_B (c : Dev nD) (t : Fin cfg0.N) (h0 : t.val % 2 = 1) (d) :
    (dats m 0 c).before 6 t d
      = win0_6.fill (grid0.coords ⟨t.val - 1, Nat.lt_of_le_of_lt (Nat.sub_le _ _) t.isLt⟩) d
          (win0_6.cut (grid0.coords ⟨t.val - 1, Nat.lt_of_le_of_lt (Nat.sub_le _ _) t.isLt⟩)
            (outsAt m c (t.val - 1) (Nat.lt_of_le_of_lt (Nat.sub_le _ _) t.isLt)).2) := by
  rw [Dat.before_of_pos _ 6 t (by omega) (nofetch_out t).2,
    if_neg (by rw [Bool.not_eq_true]; exact Bool.eq_false_iff.mpr fun h => by have := (flush0_6 _).mp h; dsimp only at this; omega)]
  unfold Dat.left Dat.kept; rw [after_6]
  split
  · next h => exact absurd (h.symm.trans (live_out _).2) (by decide)
  · rfl

end Cert.KernelIdeal.Hand

end
-- ==== Proof.Ideal.PayIdx.lean ====
/-
  The kernel body's arithmetic read at one entry, at the extended reals.

  Each of the body's six stored values is a matrix over (output feature, row of the block). The two matrix products
  contract the 512 features of a half of the weight slice against the same 512 features of the row block of x, so
  entry (c, r) is the sum over the feature k of W(c, k) · x(r, k). On the first half of the contraction the stored value
  adds the bias: the bias row [1, n] is turned into a column [n, 1] and repeated along the rows of x, so entry (c, r)
  adds b(0, c). On the second half the stored value is what the buffer held at (c, r) plus the product.
-/
import proofs.«141124_g6244882448852_cont_9to1_m_469_19_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Group.Finset.Defs
import Mathlib.Algebra.BigOperators.Group.Finset.Basic

noncomputable section

namespace Cert.KernelIdeal.Pay

open Cert.KernelIdeal Cert.KernelIdeal.Gen Idealize.ShloMosaic Idealize.ShloMosaic.ValueIdx
open scoped BigOperators

/-! ## A column repeated along a second axis -/

/-- A column `[a, 1]` repeated `b` times along the second axis reads, at `(p, q)`, the column's entry at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The 81-wide product: where the two operands are read

The contraction runs over axis 1 of the weight slice and axis 1 of the row block. At output entry `i` and contraction
position `q`, the weight slice is read at (i 0, q) and the row block at (i 1, q). -/

/-- The weight slice's row is the output's row. -/
private theorem lhs81_0 (i : S81x2560.Idx) (q : dot_S81x512_S2560x512_S81x2560_1_1_0_0_n_n.contr.Idx) :
    (dot_S81x512_S2560x512_S81x2560_1_1_0_0_n_n.lhsIdx i q 0).val = (i 0).val := by
  unfold DotDims.lhsIdx
  rw [dif_neg (show ¬(0 : Fin S81x512.rank) ∈ dot_S81x512_S2560x512_S81x2560_1_1_0_0_n_n.lhsBatch by decide), dif_pos (show (0 : Fin S81x512.rank) ∈ dot_S81x512_S2560x512_S81x2560_1_1_0_0_n_n.lhsNonContracting by decide)]
  rfl
/-- The weight slice's column is the contraction position. -/
private theorem lhs81_1 (i : S81x2560.Idx) (q : dot_S81x512_S2560x512_S81x2560_1_1_0_0_n_n.contr.Idx) :
    (dot_S81x512_S2560x512_S81x2560_1_1_0_0_n_n.lhsIdx i q 1).val = (q ⟨0, by decide⟩).val :=
  dot_S81x512_S2560x512_S81x2560_1_1_0_0_n_n.lhsIdx_val_of_single rfl i q
/-- The row block's row is the output's column. -/
private theorem rhs81_0 (i : S81x2560.Idx) (q : dot_S81x512_S2560x512_S81x2560_1_1_0_0_n_n.contr.Idx) :
    (dot_S81x512_S2560x512_S81x2560_1_1_0_0_n_n.rhsIdx i q 0).val = (i 1).val := by
  unfold DotDims.rhsIdx
  rw [dif_neg (show ¬(0 : Fin S2560x512.rank) ∈ dot_S81x512_S2560x512_S81x2560_1_1_0_0_n_n.rhsBatch by decide), dif_pos (show (0 : Fin S2560x512.rank) ∈ dot_S81x512_S2560x512_S81x2560_1_1_0_0_n_n.rhsNonContracting by decide)]
  rfl
/-- The row block's column is the contraction position. -/
private theorem rhs81_1 (i : S81x2560.Idx) (q : dot_S81x512_S2560x512_S81x2560_1_1_0_0_n_n.contr.Idx) :
    (dot_S81x512_S2560x512_S81x2560_1_1_0_0_n_n.rhsIdx i q 1).val = (q ⟨0, by decide⟩).val :=
  dot_S81x512_S2560x512_S81x2560_1_1_0_0_n_n.rhsIdx_val_of_single rfl i q

/-- the matrix product of the k-th slice of W_cls with the row block of x, contracted over the 512 features: entry (c, r) -/
theorem pay1_apply (v0 : Vec Ideal S2560x512 .f32) (v3 : Vec Ideal S81x512 .f32) (c : Fin 81) (r : Fin 2560) :
    k0_pay1 (F := Ideal) v0 v3 (ix2 c r) = ∑ kk : Fin 512, v3 (ix2 c kk) * v0 (ix2 r kk) := by
  unfold k0_pay1
  refine (Ideal.matmul_constant_zero_apply dot_S81x512_S2560x512_S81x2560_1_1_0_0_n_n none v3 v0 (ix2 c r)).trans ?_
  rw [← Equiv.sum_comp (ValueIdx.contrEquiv1 dot_S81x512_S2560x512_S81x2560_1_1_0_0_n_n 512 rfl rfl).symm]
  refine Finset.sum_congr rfl fun k _ => ?_
  have hk := ValueIdx.contrEquiv1_symm_val dot_S81x512_S2560x512_S81x2560_1_1_0_0_n_n 512 rfl rfl k
  have el : dot_S81x512_S2560x512_S81x2560_1_1_0_0_n_n.lhsIdx (ix2 c r) ((ValueIdx.contrEquiv1 dot_S81x512_S2560x512_S81x2560_1_1_0_0_n_n 512 rfl rfl).symm k) = ix2 c k := funext fun a => Fin.ext (by
    match a with
    | ⟨0, _⟩ => exact lhs81_0 _ _
    | ⟨1, _⟩ => exact (lhs81_1 _ _).trans hk)
  have er : dot_S81x512_S2560x512_S81x2560_1_1_0_0_n_n.rhsIdx (ix2 c r) ((ValueIdx.contrEquiv1 dot_S81x512_S2560x512_S81x2560_1_1_0_0_n_n 512 rfl rfl).symm k) = ix2 r k := funext fun a => Fin.ext (by
    match a with
    | ⟨0, _⟩ => exact rhs81_0 _ _
    | ⟨1, _⟩ => exact (rhs81_1 _ _).trans hk)
  rw [el, er]

/-! ## The 320-wide product: where the two operands are read

The same reading for the second weight matrix, 320 output features wide. -/

/-- The weight slice's row is the output's row. -/
private theorem lhs320_0 (i : S320x2560.Idx) (q : dot_S320x512_S2560x512_S320x2560_1_1_0_0_n_n.contr.Idx) :
    (dot_S320x512_S2560x512_S320x2560_1_1_0_0_n_n.lhsIdx i q 0).val = (i 0).val := by
  unfold DotDims.lhsIdx
  rw [dif_neg (show ¬(0 : Fin S320x512.rank) ∈ dot_S320x512_S2560x512_S320x2560_1_1_0_0_n_n.lhsBatch by decide), dif_pos (show (0 : Fin S320x512.rank) ∈ dot_S320x512_S2560x512_S320x2560_1_1_0_0_n_n.lhsNonContracting by decide)]
  rfl
/-- The weight slice's column is the contraction position. -/
private theorem lhs320_1 (i : S320x2560.Idx) (q : dot_S320x512_S2560x512_S320x2560_1_1_0_0_n_n.contr.Idx) :
    (dot_S320x512_S2560x512_S320x2560_1_1_0_0_n_n.lhsIdx i q 1).val = (q ⟨0, by decide⟩).val :=
  dot_S320x512_S2560x512_S320x2560_1_1_0_0_n_n.lhsIdx_val_of_single rfl i q
/-- The row block's row is the output's column. -/
private theorem rhs320_0 (i : S320x2560.Idx) (q : dot_S320x512_S2560x512_S320x2560_1_1_0_0_n_n.contr.Idx) :
    (dot_S320x512_S2560x512_S320x2560_1_1_0_0_n_n.rhsIdx i q 0).val = (i 1).val := by
  unfold DotDims.rhsIdx
  rw [dif_neg (show ¬(0 : Fin S2560x512.rank) ∈ dot_S320x512_S2560x512_S320x2560_1_1_0_0_n_n.rhsBatch by decide), dif_pos (show (0 : Fin S2560x512.rank) ∈ dot_S320x512_S2560x512_S320x2560_1_1_0_0_n_n.rhsNonContracting by decide)]
  rfl
/-- The row block's column is the contraction position. -/
private theorem rhs320_1 (i : S320x2560.Idx) (q : dot_S320x512_S2560x512_S320x2560_1_1_0_0_n_n.contr.Idx) :
    (dot_S320x512_S2560x512_S320x2560_1_1_0_0_n_n.rhsIdx i q 1).val = (q ⟨0, by decide⟩).val :=
  dot_S320x512_S2560x512_S320x2560_1_1_0_0_n_n.rhsIdx_val_of_single rfl i q

/-- the matrix product of the slice of the second weight matrix with the row block of x: entry (c, r) -/
theorem pay2_apply (v0 : Vec Ideal S2560x512 .f32) (v6 : Vec Ideal S320x512 .f32) (c : Fin 320) (r : Fin 2560) :
    k0_pay2 (F := Ideal) v0 v6 (ix2 c r) = ∑ kk : Fin 512, v6 (ix2 c kk) * v0 (ix2 r kk) := by
  unfold k0_pay2
  refine (Ideal.matmul_constant_zero_apply dot_S320x512_S2560x512_S320x2560_1_1_0_0_n_n none v6 v0 (ix2 c r)).trans ?_
  rw [← Equiv.sum_comp (ValueIdx.contrEquiv1 dot_S320x512_S2560x512_S320x2560_1_1_0_0_n_n 512 rfl rfl).symm]
  refine Finset.sum_congr rfl fun k _ => ?_
  have hk := ValueIdx.contrEquiv1_symm_val dot_S320x512_S2560x512_S320x2560_1_1_0_0_n_n 512 rfl rfl k
  have el : dot_S320x512_S2560x512_S320x2560_1_1_0_0_n_n.lhsIdx (ix2 c r) ((ValueIdx.contrEquiv1 dot_S320x512_S2560x512_S320x2560_1_1_0_0_n_n 512 rfl rfl).symm k) = ix2 c k := funext fun a => Fin.ext (by
    match a with
    | ⟨0, _⟩ => exact lhs320_0 _ _
    | ⟨1, _⟩ => exact (lhs320_1 _ _).trans hk)
  have er : dot_S320x512_S2560x512_S320x2560_1_1_0_0_n_n.rhsIdx (ix2 c r) ((ValueIdx.contrEquiv1 dot_S320x512_S2560x512_S320x2560_1_1_0_0_n_n 512 rfl rfl).symm k) = ix2 r k := funext fun a => Fin.ext (by
    match a with
    | ⟨0, _⟩ => exact rhs320_0 _ _
    | ⟨1, _⟩ => exact (rhs320_1 _ _).trans hk)
  rw [el, er]

/-! ## First half of the contraction: product plus bias -/

/-- first half: the product plus the bias row transposed to a column and broadcast along the rows of x -/
theorem pay3_apply (v0 : Vec Ideal S2560x512 .f32) (v3 : Vec Ideal S81x512 .f32) (v14 : Vec Ideal S1x81 .f32) (c : Fin 81) (r : Fin 2560) :
    k0_pay3 (F := Ideal) v0 v3 v14 (ix2 c r) = (∑ kk : Fin 512, v3 (ix2 c kk) * v0 (ix2 r kk)) + v14 (ix2 (0 : Fin 1) c) := by
  unfold k0_pay3
  refine (addf_apply _ _ (ix2 c r)).trans ?_
  refine congrArg₂ (· + ·) (pay1_apply v0 v3 c r) ?_
  refine (broadcastTo_a1_ab_apply _ broadcasts_S81x1_S81x2560 c r).trans ?_
  refine (transpose_ix2_apply _ transposes_S1x81_p1_0_S81x1 c (0 : Fin 1)).trans ?_
  exact congrFun (shapeCast_self v14 shapeCasts_S1x81_S1x81) _

/-- the same for the 320-wide output: the product plus its bias, one bias entry per output feature -/
theorem pay4_apply (v0 : Vec Ideal S2560x512 .f32) (v6 : Vec Ideal S320x512 .f32) (v20 : Vec Ideal S1x320 .f32) (c : Fin 320) (r : Fin 2560) :
    k0_pay4 (F := Ideal) v0 v6 v20 (ix2 c r) = (∑ kk : Fin 512, v6 (ix2 c kk) * v0 (ix2 r kk)) + v20 (ix2 (0 : Fin 1) c) := by
  unfold k0_pay4
  refine (addf_apply _ _ (ix2 c r)).trans ?_
  refine congrArg₂ (· + ·) (pay2_apply v0 v6 c r) ?_
  refine (broadcastTo_a1_ab_apply _ broadcasts_S320x1_S320x2560 c r).trans ?_
  refine (transpose_ix2_apply _ transposes_S1x320_p1_0_S320x1 c (0 : Fin 1)).trans ?_
  exact congrFun (shapeCast_self v20 shapeCasts_S1x320_S1x320) _

/-! ## Second half of the contraction: the buffer plus the product -/

/-- second half: what the buffer held plus the product -/
theorem pay5_apply (v0 : Vec Ideal S2560x512 .f32) (v3 : Vec Ideal S81x512 .f32) (v14 : Vec Ideal S81x2560 .f32) (c : Fin 81) (r : Fin 2560) :
    k0_pay5 (F := Ideal) v0 v3 v14 (ix2 c r) = v14 (ix2 c r) + ∑ kk : Fin 512, v3 (ix2 c kk) * v0 (ix2 r kk) := by
  unfold k0_pay5
  refine (addf_apply _ _ (ix2 c r)).trans ?_
  exact congrArg₂ (· + ·) (congrFun (shapeCast_self v14 shapeCasts_S81x2560_S81x2560) _) (pay1_apply v0 v3 c r)
/-- the same for the 320-wide output: the buffer's entry plus the product -/
theorem pay6_apply (v0 : Vec Ideal S2560x512 .f32) (v6 : Vec Ideal S320x512 .f32) (v18 : Vec Ideal S320x2560 .f32) (c : Fin 320) (r : Fin 2560) :
    k0_pay6 (F := Ideal) v0 v6 v18 (ix2 c r) = v18 (ix2 c r) + ∑ kk : Fin 512, v6 (ix2 c kk) * v0 (ix2 r kk) := by
  unfold k0_pay6
  refine (addf_apply _ _ (ix2 c r)).trans ?_
  exact congrArg₂ (· + ·) (congrFun (shapeCast_self v18 shapeCasts_S320x2560_S320x2560) _) (pay2_apply v0 v6 c r)

end Cert.KernelIdeal.Pay

end
-- ==== Proof.Ideal.Agree.lean ====
/-
  Agreement on the moved part of a block.

  Three windows are cut at the array's end in the last row block: x's block on its row axis, and the two transposed
  outputs' blocks on their column axis, all to the same count of rows. Past the cut a staging buffer holds arbitrary
  words. Two contents of a block "agree" at a grid point when they are equal at every entry the transfer at that point
  moves. Entry (c, r) of each stored value is a sum over the features of W(c, k) · x(r, k), plus a bias entry or the
  buffer's entry (c, r): it reads x's block in row r only. An output's moved entries have r below the cut, and those
  rows of x's block are moved rows. So stored values computed from agreeing blocks agree.
-/
import proofs.«141124_g6244882448852_cont_9to1_m_469_19_alg».proof.Proof.Ideal.Geometry
import proofs.«141124_g6244882448852_cont_9to1_m_469_19_alg».proof.Proof.Ideal.PayIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal Cert.KernelIdeal.Gen
open Cert.KernelIdeal.Pay Idealize.ShloMosaic.ValueIdx
open scoped BigOperators

/-! ## Agreement on what a transfer moves -/

/-- Two contents of a window's block agree on the entries its transfer at coordinates i moves. -/
def AgreeOn {G : Pipeline.Grid} (w : Pipeline.Window sig G) (i : G.Coords) {α : Type} (X X' : w.block.Idx → α) : Prop :=
  ∀ j, w.moved i j = true → X j = X' j

theorem AgreeOn.rfl' {G : Pipeline.Grid} (w : Pipeline.Window sig G) (i : G.Coords) {α : Type} (X : w.block.Idx → α) : AgreeOn w i X X :=
  fun _ _ => rfl

theorem AgreeOn.symm' {G : Pipeline.Grid} {w : Pipeline.Window sig G} {i : G.Coords} {α : Type} {X X' : w.block.Idx → α} (h : AgreeOn w i X X') : AgreeOn w i X' X :=
  fun j hj => (h j hj).symm

theorem AgreeOn.trans' {G : Pipeline.Grid} {w : Pipeline.Window sig G} {i : G.Coords} {α : Type} {X Y Z : w.block.Idx → α} (h : AgreeOn w i X Y) (h' : AgreeOn w i Y Z) : AgreeOn w i X Z :=
  fun j hj => (h j hj).trans (h' j hj)

/-- A moved entry of the block is an entry of the moved part, put back into the block. -/
private theorem exists_xinj_of_moved {G : Pipeline.Grid} (w : Pipeline.Window sig G) (i : G.Coords) {j : w.block.Idx}
    (hj : w.moved i j = true) : ∃ j' : (w.xblock i).Idx, j = w.xinj i j' :=
  ⟨fun a => ⟨(j a).val, (w.moved_iff i j).mp hj a⟩, rfl⟩

/-- a block filled with the moved part of Z agrees with Z there, whatever fills the rest -/
theorem agree_fill_cut {G : Pipeline.Grid} (w : Pipeline.Window sig G) (i : G.Coords) {α : Type} (d Z : w.block.Idx → α) : AgreeOn w i (w.fill i d (w.cut i Z)) Z := by
  intro j hj
  obtain ⟨j', rfl⟩ := exists_xinj_of_moved w i hj
  exact w.fill_xinj i d (w.cut i Z) j'

/-- two fillings of one moved part agree there -/
theorem agree_fill {G : Pipeline.Grid} (w : Pipeline.Window sig G) (i : G.Coords) {α : Type} (d d' : w.block.Idx → α) (g : (w.xblock i).Idx → α) : AgreeOn w i (w.fill i d g) (w.fill i d' g) := by
  intro j hj
  obtain ⟨j', rfl⟩ := exists_xinj_of_moved w i hj
  exact (w.fill_xinj i d g j').trans (w.fill_xinj i d' g j').symm

/-- Agreeing contents have the same moved part. -/
theorem cut_eq_of_agree {G : Pipeline.Grid} (w : Pipeline.Window sig G) (i : G.Coords) {α : Type} {X Y : w.block.Idx → α} (h : AgreeOn w i X Y) : w.cut i X = w.cut i Y :=
  funext fun j' => h (w.xinj i j') (w.moved_xinj i j')

/-- Filling a block with the moved part of one that agrees with it changes nothing. -/
theorem fill_cut_of_agree {G : Pipeline.Grid} (w : Pipeline.Window sig G) (i : G.Coords) {α : Type} {X Y : w.block.Idx → α} (h : AgreeOn w i X Y) : w.fill i X (w.cut i Y) = X :=
  w.fill_congr_cut i (cut_eq_of_agree w i h)

/-! ## The two points of one row block -/

/-- At the odd point of a row block the scores' write-back moves what it moves at the even point before it. -/
private theorem moved5_pred (t : Fin cfg0.N) (h : t.val % 2 = 1) (j : win0_5.block.Idx) :
    win0_5.moved (grid0.coords ⟨t.val - 1, Nat.lt_of_le_of_lt (Nat.sub_le _ _) t.isLt⟩) j = true ↔ win0_5.moved (grid0.coords t) j = true := by
  rw [win0_5.moved_iff, win0_5.moved_iff]
  refine forall_congr' fun a => ?_
  have hx : win0_5.xsize (grid0.coords ⟨t.val - 1, Nat.lt_of_le_of_lt (Nat.sub_le _ _) t.isLt⟩) a = win0_5.xsize (grid0.coords t) a := by
    match a with
    | ⟨0, _⟩ => exact (xsize_s ⟨t.val - 1, Nat.lt_of_le_of_lt (Nat.sub_le _ _) t.isLt⟩).1.trans (xsize_s t).1.symm
    | ⟨1, _⟩ => exact ((xsize_s ⟨t.val - 1, Nat.lt_of_le_of_lt (Nat.sub_le _ _) t.isLt⟩).2.trans (rowsIn_pred t.val h)).trans (xsize_s t).2.symm
  rw [hx]

/-- The same for the deltas' write-back. -/
private theorem moved6_pred (t : Fin cfg0.N) (h : t.val % 2 = 1) (j : win0_6.block.Idx) :
    win0_6.moved (grid0.coords ⟨t.val - 1, Nat.lt_of_le_of_lt (Nat.sub_le _ _) t.isLt⟩) j = true ↔ win0_6.moved (grid0.coords t) j = true := by
  rw [win0_6.moved_iff, win0_6.moved_iff]
  refine forall_congr' fun a => ?_
  have hx : win0_6.xsize (grid0.coords ⟨t.val - 1, Nat.lt_of_le_of_lt (Nat.sub_le _ _) t.isLt⟩) a = win0_6.xsize (grid0.coords t) a := by
    match a with
    | ⟨0, _⟩ => exact (xsize_d ⟨t.val - 1, Nat.lt_of_le_of_lt (Nat.sub_le _ _) t.isLt⟩).1.trans (xsize_d t).1.symm
    | ⟨1, _⟩ => exact ((xsize_d ⟨t.val - 1, Nat.lt_of_le_of_lt (Nat.sub_le _ _) t.isLt⟩).2.trans (rowsIn_pred t.val h)).trans (xsize_d t).2.symm
  rw [hx]

/-- the two points of one row block cut an output's block alike (t odd: t - 1 and t) -/
theorem agree_pred_5 (t : Fin cfg0.N) (h : t.val % 2 = 1) {α : Type} (X X' : win0_5.block.Idx → α) :
    AgreeOn win0_5 (grid0.coords ⟨t.val - 1, Nat.lt_of_le_of_lt (Nat.sub_le _ _) t.isLt⟩) X X' ↔ AgreeOn win0_5 (grid0.coords t) X X' :=
  forall_congr' fun j => imp_congr_left (moved5_pred t h j)

theorem agree_pred_6 (t : Fin cfg0.N) (h : t.val % 2 = 1) {α : Type} (X X' : win0_6.block.Idx → α) :
    AgreeOn win0_6 (grid0.coords ⟨t.val - 1, Nat.lt_of_le_of_lt (Nat.sub_le _ _) t.isLt⟩) X X' ↔ AgreeOn win0_6 (grid0.coords t) X X' :=
  forall_congr' fun j => imp_congr_left (moved6_pred t h j)

/-! ## The stored values read x's block in moved rows only -/

/-- Blocks of x that agree at point t are equal in every row below the cut. -/
private theorem x_row_agree (t : Fin cfg0.N) (X0 X0' : Vec Ideal S2560x512 .f32) (h : AgreeOn win0_0 (grid0.coords t) X0 X0')
    (r : Fin 2560) (hr : r.val < rowsIn t.val) (kk : Fin 512) : X0 (ix2 r kk) = X0' (ix2 r kk) := by
  refine h (ix2 r kk) ((win0_0.moved_iff (grid0.coords t) (ix2 r kk)).mpr fun a => ?_)
  match a with
  | ⟨0, _⟩ => exact lt_of_lt_of_eq hr (xsize_x t).1.symm
  | ⟨1, _⟩ => exact lt_of_lt_of_eq kk.isLt (xsize_x t).2.symm

/-- A moved entry (c, r) of the scores' block has r below the cut. -/
private theorem row_lt_of_moved5 (t : Fin cfg0.N) (c : Fin 81) (r : Fin 2560)
    (hj : win0_5.moved (grid0.coords t) (ix2 c r) = true) : r.val < rowsIn t.val :=
  lt_of_lt_of_eq ((win0_5.moved_iff (grid0.coords t) (ix2 c r)).mp hj 1) (xsize_s t).2

/-- A moved entry (c, r) of the deltas' block has r below the cut. -/
private theorem row_lt_of_moved6 (t : Fin cfg0.N) (c : Fin 320) (r : Fin 2560)
    (hj : win0_6.moved (grid0.coords t) (ix2 c r) = true) : r.val < rowsIn t.val :=
  lt_of_lt_of_eq ((win0_6.moved_iff (grid0.coords t) (ix2 c r)).mp hj 1) (xsize_d t).2

/-- first half: the moved entries of "product + bias" depend only on the moved rows of x's block -/
theorem pay3_agree (t : Fin cfg0.N) (X0 X0' : Vec Ideal S2560x512 .f32) (v3 : Vec Ideal S81x512 .f32) (v14 : Vec Ideal S1x81 .f32)
    (h : AgreeOn win0_0 (grid0.coords t) X0 X0') :
    AgreeOn win0_5 (grid0.coords t) (k0_pay3 (F := Ideal) X0 v3 v14) (k0_pay3 (F := Ideal) X0' v3 v14) := by
  intro j hj
  obtain ⟨c, r, rfl⟩ : ∃ (c : Fin 81) (r : Fin 2560), j = ix2 c r := ⟨j 0, j 1, eq_ix2 j⟩
  have hr := row_lt_of_moved5 t c r hj
  refine (pay3_apply X0 v3 v14 c r).trans (Eq.trans ?_ (pay3_apply X0' v3 v14 c r).symm)
  refine congrArg (· + v14 (ix2 (0 : Fin 1) c)) (Finset.sum_congr rfl fun kk _ => ?_)
  exact congrArg (v3 (ix2 c kk) * ·) (x_row_agree t X0 X0' h r hr kk)

theorem pay4_agree (t : Fin cfg0.N) (X0 X0' : Vec Ideal S2560x512 .f32) (v6 : Vec Ideal S320x512 .f32) (v20 : Vec Ideal S1x320 .f32)
    (h : AgreeOn win0_0 (grid0.coords t) X0 X0') :
    AgreeOn win0_6 (grid0.coords t) (k0_pay4 (F := Ideal) X0 v6 v20) (k0_pay4 (F := Ideal) X0' v6 v20) := by
  intro j hj
  obtain ⟨c, r, rfl⟩ : ∃ (c : Fin 320) (r : Fin 2560), j = ix2 c r := ⟨j 0, j 1, eq_ix2 j⟩
  have hr := row_lt_of_moved6 t c r hj
  refine (pay4_apply X0 v6 v20 c r).trans (Eq.trans ?_ (pay4_apply X0' v6 v20 c r).symm)
  refine congrArg (· + v20 (ix2 (0 : Fin 1) c)) (Finset.sum_congr rfl fun kk _ => ?_)
  exact congrArg (v6 (ix2 c kk) * ·) (x_row_agree t X0 X0' h r hr kk)

/-- second half: … and on the moved entries of what the buffer held -/
theorem pay5_agree (t : Fin cfg0.N) (X0 X0' : Vec Ideal S2560x512 .f32) (v3 : Vec Ideal S81x512 .f32) (Y Y' : Vec Ideal S81x2560 .f32)
    (h0 : AgreeOn win0_0 (grid0.coords t) X0 X0') (h5 : AgreeOn win0_5 (grid0.coords t) Y Y') :
    AgreeOn win0_5 (grid0.coords t) (k0_pay5 (F := Ideal) X0 v3 Y) (k0_pay5 (F := Ideal) X0' v3 Y') := by
  intro j hj
  have hY := h5 j hj
  obtain ⟨c, r, rfl⟩ : ∃ (c : Fin 81) (r : Fin 2560), j = ix2 c r := ⟨j 0, j 1, eq_ix2 j⟩
  have hr := row_lt_of_moved5 t c r hj
  refine (pay5_apply X0 v3 Y c r).trans (Eq.trans ?_ (pay5_apply X0' v3 Y' c r).symm)
  refine congrArg₂ (· + ·) hY (Finset.sum_congr rfl fun kk _ => ?_)
  exact congrArg (v3 (ix2 c kk) * ·) (x_row_agree t X0 X0' h0 r hr kk)

theorem pay6_agree (t : Fin cfg0.N) (X0 X0' : Vec Ideal S2560x512 .f32) (v6 : Vec Ideal S320x512 .f32) (Y Y' : Vec Ideal S320x2560 .f32)
    (h0 : AgreeOn win0_0 (grid0.coords t) X0 X0') (h6 : AgreeOn win0_6 (grid0.coords t) Y Y') :
    AgreeOn win0_6 (grid0.coords t) (k0_pay6 (F := Ideal) X0 v6 Y) (k0_pay6 (F := Ideal) X0' v6 Y') := by
  intro j hj
  have hY := h6 j hj
  obtain ⟨c, r, rfl⟩ : ∃ (c : Fin 320) (r : Fin 2560), j = ix2 c r := ⟨j 0, j 1, eq_ix2 j⟩
  have hr := row_lt_of_moved6 t c r hj
  refine (pay6_apply X0 v6 Y c r).trans (Eq.trans ?_ (pay6_apply X0' v6 Y' c r).symm)
  refine congrArg₂ (· + ·) hY (Finset.sum_congr rfl fun kk _ => ?_)
  exact congrArg (v6 (ix2 c kk) * ·) (x_row_agree t X0 X0' h0 r hr kk)

end Cert.KernelIdeal.Hand

end
-- ==== Proof.Ideal.Body.lean ====
/-
  The body obligation of the idealized kernel's pipeline, at the extended reals.

  At every point the body finds x's staging buffer at its block on the rows inside the array and ARBITRARY words
  past them, the weights' and biases' buffers at their blocks, and each output's buffer at nothing anyone names
  (first half of the contraction) or at what the first half left on the moved entries (second half). It leaves the
  inputs' buffers as they were and each output's buffer at a value that AGREES, on the entries the write-back
  moves, with the running value the proof data names — which is all the obligation of a cut window asks: at the
  extended reals a moved entry (c, r) of the product depends only on row r of x's block, a row inside the array.
-/
import proofs.«141124_g6244882448852_cont_9to1_m_469_19_alg».proof.Proof.Ideal.Data
import proofs.«141124_g6244882448852_cont_9to1_m_469_19_alg».proof.Proof.Ideal.Agree

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## What the obligation asks of each window's buffer after the body -/

/-- x's window is cut and never idle: its buffer is handed back at its block on the moved rows. -/
theorem leaves_0 (c : Dev nD) (t : Fin cfg0.N) : (dats m 0 c).leaves 0 t
    = iprop(∃ d, owns (c : Thread nD τ) (ms0 t) fullShare (win0_0.fill (grid0.coords t) d (win0_0.cut (grid0.coords t) (xfull m c t)))) := by
  unfold Dat.leaves; rw [after_0]; rfl
/-- The weights' and biases' windows are uncut and never idle: their buffers are handed back at their blocks. -/
theorem leaves_1 (c : Dev nD) (t : Fin cfg0.N) : (dats m 0 c).leaves 1 t = owns (c : Thread nD τ) (ms1 t) fullShare (iblk m c 1 t) := by
  unfold Dat.leaves; rw [after_1]
theorem leaves_2 (c : Dev nD) (t : Fin cfg0.N) : (dats m 0 c).leaves 2 t = owns (c : Thread nD τ) (ms2 t) fullShare (iblk m c 2 t) := by
  unfold Dat.leaves; rw [after_2]
theorem leaves_3 (c : Dev nD) (t : Fin cfg0.N) : (dats m 0 c).leaves 3 t = owns (c : Thread nD τ) (ms3 t) fullShare (iblk m c 3 t) := by
  unfold Dat.leaves; rw [after_3]
theorem leaves_4 (c : Dev nD) (t : Fin cfg0.N) : (dats m 0 c).leaves 4 t = owns (c : Thread nD τ) (ms4 t) fullShare (iblk m c 4 t) := by
  unfold Dat.leaves; rw [after_4]
/-- An output's window is cut and the body stores into it at every point: its buffer is handed back at the running
    value on the moved entries. -/
theorem leaves_5 (c : Dev nD) (t : Fin cfg0.N) : (dats m 0 c).leaves 5 t
    = iprop(∃ d, owns (c : Thread nD τ) (ms5 t) fullShare (win0_5.fill (grid0.coords t) d (win0_5.cut (grid0.coords t) (outsAt m c t.val t.isLt).1))) := by
  unfold Dat.leaves; rw [(live_out t).1, after_5]; rfl
theorem leaves_6 (c : Dev nD) (t : Fin cfg0.N) : (dats m 0 c).leaves 6 t
    = iprop(∃ d, owns (c : Thread nD τ) (ms6 t) fullShare (win0_6.fill (grid0.coords t) d (win0_6.cut (grid0.coords t) (outsAt m c t.val t.isLt).2))) := by
  unfold Dat.leaves; rw [(live_out t).2, after_6]; rfl

/-! ## The obligation at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t
    ∗ (dats m 0 c).leaves 4 t ∗ (dats m 0 c).leaves 5 t ∗ (dats m 0 c).leaves 6 t)

/-- Whatever fills x's buffer past the array's end, it agrees with the zero-filled block on the moved rows. -/
theorem xfound_agree (c : Dev nD) (t : Fin cfg0.N) (d : Vec Ideal S2560x512 .f32) :
    AgreeOn win0_0 (grid0.coords t) (win0_0.fill (grid0.coords t) d (xblk m c t)) (xfull m c t) := by
  unfold xfull; exact agree_fill win0_0 (grid0.coords t) d _ (xblk m c t)

set_option maxHeartbeats 4000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    leaves_0, leaves_1, leaves_2, leaves_3, leaves_4, leaves_5, leaves_6]
  by_cases h0 : t.val % 2 = 0
  · -- first half of the contraction
    have hA : k0_cond1 (grid0.coords t) = 1#1 := (hcondA t).mpr h0
    have hnB : ¬k0_cond2 (grid0.coords t) = 1#1 := fun h => by have := (hcondB t).mp h; omega
    simp only [before_5_A m c t h0, before_6_A m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRunA c (grid0.coords t) (ms0 t) (hs0 t) (ms1 t) (hs1 t) (ms2 t) (hs2 t) (ms3 t) (hs3 t) (ms4 t) (hs4 t) (ms5 t) (hs5 t) (ms6 t) (hs6 t) hA hnB
      (win0_0.fill (grid0.coords t) d0 (xblk m c t)) (iblk m c 1 t) (iblk m c 2 t) (iblk m c 3 t) (iblk m c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]
    · iexists d0; unfold xfull; rw [Window.cut_fill]; iexact H0
    isplitl [H1]; · iexact H1
    isplitl [H2]; · iexact H2
    isplitl [H3]; · iexact H3
    isplitl [H4]; · iexact H4
    have hx := xfound_agree m c t d0
    have a5 : AgreeOn win0_5 (grid0.coords t)
        (outA_5 c (grid0.coords t) (ms0 t) (hs0 t) (ms1 t) (hs1 t) (ms2 t) (hs2 t) (ms3 t) (hs3 t) (ms4 t) (hs4 t) (ms5 t) (hs5 t) (ms6 t) (hs6 t) hA hnB (win0_0.fill (grid0.coords t) d0 (xblk m c t)) (iblk m c 1 t) (iblk m c 2 t) (iblk m c 3 t) (iblk m c 4 t))
        (outsAt m c t.val t.isLt).1 := by
      rw [outA_5_eq, outsAt_A m c t h0]
      exact pay3_agree t _ (xfull m c t) (wSlice1 (grid0.coords t) (wcls m c t)) (bcls m c t) hx
    have a6 : AgreeOn win0_6 (grid0.coords t)
        (outA_6 c (grid0.coords t) (ms0 t) (hs0 t) (ms1 t) (hs1 t) (ms2 t) (hs2 t) (ms3 t) (hs3 t) (ms4 t) (hs4 t) (ms5 t) (hs5 t) (ms6 t) (hs6 t) hA hnB (win0_0.fill (grid0.coords t) d0 (xblk m c t)) (iblk m c 1 t) (iblk m c 2 t) (iblk m c 3 t) (iblk m c 4 t))
        (outsAt m c t.val t.isLt).2 := by
      rw [outA_6_eq, outsAt_A m c t h0]
      exact pay4_agree t _ (xfull m c t) (wSlice2 (grid0.coords t) (wbox m c t)) (bbox m c t) hx
    isplitl [H5]
    · iexists (outA_5 c (grid0.coords t) (ms0 t) (hs0 t) (ms1 t) (hs1 t) (ms2 t) (hs2 t) (ms3 t) (hs3 t) (ms4 t) (hs4 t) (ms5 t) (hs5 t) (ms6 t) (hs6 t) hA hnB (win0_0.fill (grid0.coords t) d0 (xblk m c t)) (iblk m c 1 t) (iblk m c 2 t) (iblk m c 3 t) (iblk m c 4 t))
      rw [fill_cut_of_agree win0_5 (grid0.coords t) a5]
      unfold owns; iexists _; isplitr
      swap; · iexact H5
      ipureintro; exact View.read_writes_of_cover _ _ _ _ _ (coverA_5 c _ _ _ _ _ _ _ _ _ _ _ _ _ _ _ _ _ _ _ _ _ _)
    · iexists (outA_6 c (grid0.coords t) (ms0 t) (hs0 t) (ms1 t) (hs1 t) (ms2 t) (hs2 t) (ms3 t) (hs3 t) (ms4 t) (hs4 t) (ms5 t) (hs5 t) (ms6 t) (hs6 t) hA hnB (win0_0.fill (grid0.coords t) d0 (xblk m c t)) (iblk m c 1 t) (iblk m c 2 t) (iblk m c 3 t) (iblk m c 4 t))
      rw [fill_cut_of_agree win0_6 (grid0.coords t) a6]
      unfold owns; iexists _; isplitr
      swap; · iexact H6
      ipureintro; exact View.read_writes_of_cover _ _ _ _ _ (coverA_6 c _ _ _ _ _ _ _ _ _ _ _ _ _ _ _ _ _ _ _ _ _ _)
  · -- second half of the contraction
    have h1 : t.val % 2 = 1 := by omega
    have hnA : ¬k0_cond1 (grid0.coords t) = 1#1 := fun h => h0 ((hcondA t).mp h)
    have hB : k0_cond2 (grid0.coords t) = 1#1 := (hcondB t).mpr h1
    simp only [before_5_B m c t h1, before_6_B m c t h1]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRunB c (grid0.coords t) (ms0 t) (hs0 t) (ms1 t) (hs1 t) (ms2 t) (hs2 t) (ms3 t) (hs3 t) (ms4 t) (hs4 t) (ms5 t) (hs5 t) (ms6 t) (hs6 t) hnA hB
      (win0_0.fill (grid0.coords t) d0 (xblk m c t)) (iblk m c 1 t) (iblk m c 2 t) (iblk m c 3 t) (iblk m c 4 t)
      (win0_5.fill (grid0.coords ⟨t.val - 1, Nat.lt_of_le_of_lt (Nat.sub_le _ _) t.isLt⟩) d5
        (win0_5.cut (grid0.coords ⟨t.val - 1, Nat.lt_of_le_of_lt (Nat.sub_le _ _) t.isLt⟩) (outsAt m c (t.val - 1) (Nat.lt_of_le_of_lt (Nat.sub_le _ _) t.isLt)).1))
      (win0_6.fill (grid0.coords ⟨t.val - 1, Nat.lt_of_le_of_lt (Nat.sub_le _ _) t.isLt⟩) d6
        (win0_6.cut (grid0.coords ⟨t.val - 1, Nat.lt_of_le_of_lt (Nat.sub_le _ _) t.isLt⟩) (outsAt m c (t.val - 1) (Nat.lt_of_le_of_lt (Nat.sub_le _ _) t.isLt)).2))).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]
    · iexists d0; unfold xfull; rw [Window.cut_fill]; iexact H0
    isplitl [H1]; · iexact H1
    isplitl [H2]; · iexact H2
    isplitl [H3]; · iexact H3
    isplitl [H4]; · iexact H4
    have hx := xfound_agree m c t d0
    -- what the buffers held agrees with the first half's running value on this point's moved entries too
    have p5 := (agree_pred_5 t h1 _ _).mp (agree_fill_cut win0_5 (grid0.coords ⟨t.val - 1, Nat.lt_of_le_of_lt (Nat.sub_le _ _) t.isLt⟩) d5
      (outsAt m c (t.val - 1) (Nat.lt_of_le_of_lt (Nat.sub_le _ _) t.isLt)).1)
    have p6 := (agree_pred_6 t h1 _ _).mp (agree_fill_cut win0_6 (grid0.coords ⟨t.val - 1, Nat.lt_of_le_of_lt (Nat.sub_le _ _) t.isLt⟩) d6
      (outsAt m c (t.val - 1) (Nat.lt_of_le_of_lt (Nat.sub_le _ _) t.isLt)).2)
    have a5 := pay5_agree t _ (xfull m c t) (wSlice1 (grid0.coords t) (wcls m c t)) _ _ hx p5
    have a6 := pay6_agree t _ (xfull m c t) (wSlice2 (grid0.coords t) (wbox m c t)) _ _ hx p6
    isplitl [H5]
    · iexists (k0_pay5 (F := Ideal) (win0_0.fill (grid0.coords t) d0 (xblk m c t)) (wSlice1 (grid0.coords t) (wcls m c t))
        (win0_5.fill (grid0.coords ⟨t.val - 1, Nat.lt_of_le_of_lt (Nat.sub_le _ _) t.isLt⟩) d5
          (win0_5.cut (grid0.coords ⟨t.val - 1, Nat.lt_of_le_of_lt (Nat.sub_le _ _) t.isLt⟩) (outsAt m c (t.val - 1) (Nat.lt_of_le_of_lt (Nat.sub_le _ _) t.isLt)).1)))
      rw [outsAt_B m c t h1]; unfold secondHalf; dsimp only
      rw [fill_cut_of_agree win0_5 (grid0.coords t) a5, ← outB_5_eq c (grid0.coords t) (ms0 t) (hs0 t) (ms1 t) (hs1 t) (ms2 t) (hs2 t) (ms3 t) (hs3 t) (ms4 t) (hs4 t) (ms5 t) (hs5 t) (ms6 t) (hs6 t) hnA hB]
      unfold outB_5 owns; iexists _; isplitr
      swap; · iexact H5
      ipureintro; exact View.read_writes_of_cover _ _ _ _ _ (coverB_5 c _ _ _ _ _ _ _ _ _ _ _ _ _ _ _ _ _ _ _ _ _ _ _ _)
    · iexists (k0_pay6 (F := Ideal) (win0_0.fill (grid0.coords t) d0 (xblk m c t)) (wSlice2 (grid0.coords t) (wbox m c t))
        (win0_6.fill (grid0.coords ⟨t.val - 1, Nat.lt_of_le_of_lt (Nat.sub_le _ _) t.isLt⟩) d6
          (win0_6.cut (grid0.coords ⟨t.val - 1, Nat.lt_of_le_of_lt (Nat.sub_le _ _) t.isLt⟩) (outsAt m c (t.val - 1) (Nat.lt_of_le_of_lt (Nat.sub_le _ _) t.isLt)).2)))
      rw [outsAt_B m c t h1]; unfold secondHalf; dsimp only
      rw [fill_cut_of_agree win0_6 (grid0.coords t) a6, ← outB_6_eq c (grid0.coords t) (ms0 t) (hs0 t) (ms1 t) (hs1 t) (ms2 t) (hs2 t) (ms3 t) (hs3 t) (ms4 t) (hs4 t) (ms5 t) (hs5 t) (ms6 t) (hs6 t) hnA hB]
      unfold outB_6 owns; iexists _; isplitr
      swap; · iexact H6
      ipureintro; exact View.read_writes_of_cover _ _ _ _ _ (coverB_6 c _ _ _ _ _ _ _ _ _ _ _ _ _ _ _ _ _ _ _ _ _ _ _ _)

/-- The library's body obligation (the form for cut windows), at every point. -/
theorem body_obligation (c : Dev nD) : BodyObligationLoose (dats m 0 c) (defs₀ (F := Ideal)) Variants.none () Set.univ := fun t => by
  rw [bigSep_W0, bigSep_W0]
  exact sound_body m c t

end Cert.KernelIdeal.Hand

end
-- ==== Proof.Ideal.Launch.lean ====
/-
  The idealized kernel's run: every weakly fair execution of @main terminates, nothing faults, every array of the
  one pipeline ends at what the proof data computes, every other unscoped buffer at what the host lines after the
  region leave there. Read at the argument arrays this is the frame; read at the two results it is their values,
  once the two output arrays are known in closed form.
-/
import proofs.«141124_g6244882448852_cont_9to1_m_469_19_alg».proof.Proof.Ideal.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal Cert.KernelIdeal.Gen

variable (m : (ℓ : Loc nD τ sig) → Buf (Elt Ideal) ℓ) (ρ : Dev nD → PrngReg)

set_option backward.isDefEq.respectTransparency.types false in
/-- The run, with the arrays named by the proof data. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the five argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The same run read at the two results as well: each result buffer ends at what the host lines after the region
    compute from the pipeline's arrays. -/
theorem run_results : θ_run defs (onTc (τ := τ) (main (F := Ideal))) ⟨m, fun _ => 0, ρ⟩ (fun r => ∀ c : Dev nD,
      r.2.mem ((c.tc : Thread nD τ).loc main_v0_0) = Pipeline.afterTail₀ cfgs (dats m) 0 (V0 m) [hostOps1] c main_v0_0
      ∧ r.2.mem ((c.tc : Thread nD τ).loc main_v0_1) = Pipeline.afterTail₀ cfgs (dats m) 0 (V0 m) [hostOps1] c main_v0_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v0_0 (Pipeline.mem_restRefs_of main_v0_0 (by decide) (by decide)),
     (h c).2 main_v0_1 (Pipeline.mem_restRefs_of main_v0_1 (by decide) (by decide)),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     (((h c).2 main_arg2 (Pipeline.mem_restRefs_of main_arg2 (by decide) (by decide))).trans (W_main_arg2 m (dats m) c)),
     ((h c).1 3).trans (((dats m 0 c).arrAt_in 3 rfl _).trans ((A_eq m c 3).trans (V_main_arg3 m c))),
     (((h c).2 main_arg4 (Pipeline.mem_restRefs_of main_arg4 (by decide) (by decide))).trans (W_main_arg4 m (dats m) c))⟩)
    (run_main m ρ)

end Cert.KernelIdeal.Hand

end
-- ==== Proof.Spec.lean ====
/-
  The specification of the fused pair of linear layers, over the extended reals, and the one algebraic law that
  relates the two orders in which its contraction can be accumulated.

  A linear layer with n outputs sends a row x[r, ·] of 1024 features to the n numbers
      out[r, c] = Σ_k x[r, k] · W[c, k] + b[c].
  A contraction computed in two halves — the first 512 products with the bias added at once, the remaining 512
  products added afterwards, each product written weight-first or feature-first — is the same extended real:
  addition and multiplication on the extended reals are commutative and associative, whatever the operands
  (infinite ones included), so nothing has to be finite.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx
open scoped BigOperators

/-- One linear layer on the extended reals: out[r, c] = Σ_k x[r,k]·W[c,k] + b[c]. -/
def lin (n : Nat) (x : (⟨2, ![20000, 1024]⟩ : Shape).Idx → EReal) (W : (⟨2, ![n, 1024]⟩ : Shape).Idx → EReal)
    (b : (⟨1, ![n]⟩ : Shape).Idx → EReal) : (⟨2, ![20000, n]⟩ : Shape).Idx → EReal :=
  fun i => (∑ k : Fin 1024, x (ix2 (⟨(i 0).val, (i 0).isLt⟩ : Fin 20000) k) * W (ix2 (⟨(i 1).val, (i 1).isLt⟩ : Fin n) k))
    + b (ix1 (⟨(i 1).val, (i 1).isLt⟩ : Fin n))

/-- The layer read at the index with coordinates (r, c). -/
theorem lin_apply (n : Nat) (x : (⟨2, ![20000, 1024]⟩ : Shape).Idx → EReal) (W : (⟨2, ![n, 1024]⟩ : Shape).Idx → EReal)
    (b : (⟨1, ![n]⟩ : Shape).Idx → EReal) (r : Fin 20000) (c : Fin n) :
    lin n x W b (ix2 r c) = (∑ k : Fin 1024, x (ix2 r k) * W (ix2 c k)) + b (ix1 c) := rfl

/-- The kernel's order of accumulation is the layer: the first 512 products plus the bias, then the other 512
    products, equals all 1024 products (factors commuted) plus the bias. Only commutativity and associativity of
    + and · on EReal and splitting a sum over Fin 1024 = Fin (512 + 512): no finiteness is needed. -/
theorem halves (f g : Fin 1024 → EReal) (b : EReal) :
    ((∑ kk : Fin 512, f ⟨kk.val, by omega⟩ * g ⟨kk.val, by omega⟩) + b)
        + (∑ kk : Fin 512, f ⟨512 + kk.val, by omega⟩ * g ⟨512 + kk.val, by omega⟩)
      = (∑ k : Fin 1024, g k * f k) + b := by
  -- the full sum, cut at 512: the low half runs over k, the high half over 512 + k
  have cut : (∑ k : Fin 1024, g k * f k)
      = (∑ kk : Fin 512, g ⟨kk.val, by omega⟩ * f ⟨kk.val, by omega⟩)
        + (∑ kk : Fin 512, g ⟨512 + kk.val, by omega⟩ * f ⟨512 + kk.val, by omega⟩) :=
    Fin.sum_univ_add (a := 512) (b := 512) (fun k : Fin 1024 => g k * f k)
  -- commute the factors of each product
  have low : (∑ kk : Fin 512, f ⟨kk.val, by omega⟩ * g ⟨kk.val, by omega⟩)
      = ∑ kk : Fin 512, g ⟨kk.val, by omega⟩ * f ⟨kk.val, by omega⟩ :=
    Finset.sum_congr rfl fun kk _ => mul_comm _ _
  have high : (∑ kk : Fin 512, f ⟨512 + kk.val, by omega⟩ * g ⟨512 + kk.val, by omega⟩)
      = ∑ kk : Fin 512, g ⟨512 + kk.val, by omega⟩ * f ⟨512 + kk.val, by omega⟩ :=
    Finset.sum_congr rfl fun kk _ => mul_comm _ _
  -- move the bias past the second half
  rw [cut, low, high]
  exact add_right_comm _ _ _

end Cert.Spec

end
-- ==== Proof.Ideal.Targets.lean ====
/-
  What the two output arrays of the idealized kernel's one region are to hold after the run, as functions of the
  argument arrays: the kernel writes the TRANSPOSED results, so entry (c, r) of the 81 x 20000 (320 x 20000) array
  is the linear layer's value at row r, output feature c.
-/
import proofs.«141124_g6244882448852_cont_9to1_m_469_19_alg».proof.Proof.Ideal.Data
import proofs.«141124_g6244882448852_cont_9to1_m_469_19_alg».proof.Proof.Spec

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The transposed scores: entry (c, r) is the classifier layer at (r, c). -/
def scoresT (c : Dev nD) : Buf (Elt Ideal) ((c : Thread nD τ).loc main_call0_v2_0) := fun j =>
  Cert.Spec.lin 81 (m ((c : Thread nD τ).loc main_arg0)) (m ((c : Thread nD τ).loc main_arg1)) (m ((c : Thread nD τ).loc main_arg2))
    (ix2 (⟨(j 1).val, (j 1).isLt⟩ : Fin 20000) (⟨(j 0).val, (j 0).isLt⟩ : Fin 81))

/-- The transposed box deltas: entry (c, r) is the box-regression layer at (r, c). -/
def deltasT (c : Dev nD) : Buf (Elt Ideal) ((c : Thread nD τ).loc main_call0_v2_1) := fun j =>
  Cert.Spec.lin 320 (m ((c : Thread nD τ).loc main_arg0)) (m ((c : Thread nD τ).loc main_arg3)) (m ((c : Thread nD τ).loc main_arg4))
    (ix2 (⟨(j 1).val, (j 1).isLt⟩ : Fin 20000) (⟨(j 0).val, (j 0).isLt⟩ : Fin 320))

end Cert.KernelIdeal.Hand

end
-- ==== Proof.Ideal.Value5.lean ====
/-
  The array behind the scores' output window after the run, in closed form: the transposed scores.

  Point t of the grid has row block t / 2 and contraction half t % 2. The scores' block is written back at the odd
  points only. At an odd point the staging buffer holds, at an entry (cc, r) the write-back moves, the value the even
  point before it left there — the first 512 products of weight row cc with row 2560·(t/2) + r of x, plus the bias —
  plus the other 512 products: the linear layer at (2560·(t/2) + r, cc). The eight write-backs, the last one cut to
  the 2080 rows left, tile the 81 x 20000 array, so it ends holding the layer transposed.
-/
import proofs.«141124_g6244882448852_cont_9to1_m_469_19_alg».proof.Proof.Ideal.Data
import proofs.«141124_g6244882448852_cont_9to1_m_469_19_alg».proof.Proof.Ideal.PayIdx
import proofs.«141124_g6244882448852_cont_9to1_m_469_19_alg».proof.Proof.Spec
import proofs.«141124_g6244882448852_cont_9to1_m_469_19_alg».proof.Proof.Ideal.Targets
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal Cert.KernelIdeal.Gen
open Cert.KernelIdeal.Pay Idealize.ShloMosaic.ValueIdx
open scoped BigOperators

local notation "𝕄" => MT nD τ sig Unit (Elt Ideal) ℕ (UR sig nD τ) ℕ

variable (m : (ℓ : Loc nD τ sig) → Buf (Elt Ideal) ℓ)

/-! ## The argument arrays, and where this window's blocks and slices sit -/

/-- The argument arrays under their literal types, so that their entries are extended reals to the elaborator. -/
private abbrev xArr (c : Dev nD) : Vec Ideal S20000x1024 .f32 := m ((c : Thread nD τ).loc main_arg0)
private abbrev wArr (c : Dev nD) : Vec Ideal S81x1024 .f32 := m ((c : Thread nD τ).loc main_arg1)
private abbrev bArr (c : Dev nD) : Vec Ideal S81 .f32 := m ((c : Thread nD τ).loc main_arg2)

/-- The output's block at point t is block (0, t / 2) of its array. -/
private theorem out_index (t : Fin cfg0.N) : win0_5.index t 0 = 0 ∧ win0_5.index t 1 = t.val / 2 :=
  ⟨(index_facts t).2.2.1, (index_facts t).2.2.2.1⟩
/-- The weights' slice at point t starts at row 0, column 512 · (t % 2). -/
private theorem slice_off (t : Fin cfg0.N) :
    k0_off1 (grid0.coords t) 0 = 0 ∧ k0_off1 (grid0.coords t) 1 = 512 * (t.val % 2) :=
  ⟨(off_facts t).1, (off_facts t).2.1⟩

/-! ## What the body reads at a point, entry by entry -/

/-- x's block filled out with zeros, at an entry inside the array: row r of row block t / 2, feature kk of half
    t % 2 — entry (R, K) of x. -/
private theorem xfull_at (c : Dev nD) (t : Fin cfg0.N) (r : Fin 2560) (kk : Fin 512) (R : Fin 20000) (K : Fin 1024)
    (hr : r.val < rowsIn t.val) (hR : R.val = 2560 * (t.val / 2) + r.val) (hK : K.val = 512 * (t.val % 2) + kk.val) :
    xfull m c t (ix2 r kk) = m ((c : Thread nD τ).loc main_arg0) (ix2 R K) := by
  have hmv : win0_0.moved (grid0.coords t) (ix2 r kk) = true := by
    rw [Window.moved_iff]
    intro a
    match a with
    | ⟨0, _⟩ => show r.val < win0_0.xsize (grid0.coords t) 0; rw [(xsize_x t).1]; exact hr
    | ⟨1, _⟩ => show kk.val < win0_0.xsize (grid0.coords t) 1; rw [(xsize_x t).2]; exact kk.isLt
  unfold xfull Window.fill
  rw [dif_pos hmv]
  unfold xblk iblk
  rw [View.read_apply]
  show V m c main_arg0 _ = _
  rw [V_main_arg0]
  congr 1
  funext a; apply Fin.ext
  match a with
  | ⟨0, _⟩ => show win0_0.index t 0 * 2560 + 1 * r.val = R.val; rw [(index_facts t).1]; omega
  | ⟨1, _⟩ => show win0_0.index t 1 * 512 + 1 * kk.val = K.val; rw [(index_facts t).2.1]; omega

/-- The 512-column slice of the staged weights (the whole array is the one block): entry (cc, kk) is entry
    (cc, K) of the weights, K the kk-th feature of half t % 2. -/
private theorem wslice_at (c : Dev nD) (t : Fin cfg0.N) (cc : Fin 81) (kk : Fin 512) (K : Fin 1024)
    (hK : K.val = 512 * (t.val % 2) + kk.val) :
    wSlice1 (grid0.coords t) (wcls m c t) (ix2 cc kk) = m ((c : Thread nD τ).loc main_arg1) (ix2 cc K) := by
  unfold wSlice1 View.ld wcls iblk
  rw [View.read_apply]
  show V m c main_arg1 _ = _
  rw [V_main_arg1]
  congr 1
  funext a; apply Fin.ext
  match a with
  | ⟨0, _⟩ =>
    show win0_1.index t 0 * 81 + 1 * (k0_off1 (grid0.coords t) 0 + 1 * cc.val) = cc.val
    rw [(slice_off t).1, show win0_1.index t 0 = 0 from rfl]; omega
  | ⟨1, _⟩ =>
    show win0_1.index t 1 * 1024 + 1 * (k0_off1 (grid0.coords t) 1 + 1 * kk.val) = K.val
    rw [(slice_off t).2, show win0_1.index t 1 = 0 from rfl]; omega

/-- The staged bias row: the host reshaped the bias vector to one row before the region, and the row's entry
    (0, cc) is the vector's entry cc (the same row-major position). -/
private theorem bias_at (c : Dev nD) (t : Fin cfg0.N) (cc : Fin 81) :
    bcls m c t (ix2 (0 : Fin 1) cc) = m ((c : Thread nD τ).loc main_arg2) (ix1 cc) := by
  have e : (V m c main_call0_v0 : S1x81.Idx → EReal)
      = shapeCast S1x81 (m ((c : Thread nD τ).loc main_arg2)) shapeCasts_S81_S1x81 := by
    show StableHlo.after hostOps0 (fun b => m (c, b)) (Proc.devRef .tc main_call0_v0) = _
    after_results
    rfl
  unfold bcls iblk
  rw [View.read_apply]
  show V m c main_call0_v0 _ = _
  rw [e]
  refine shapeCast_apply _ _ _ (ix1 cc) ?_
  rw [Shape.rowMajor_val_one, Shape.rowMajor_val_two]
  show cc.val = (win0_2.index t 0 * 1 + 1 * 0) * 81 + (win0_2.index t 1 * 81 + 1 * cc.val)
  rw [show win0_2.index t 0 = 0 from rfl, show win0_2.index t 1 = 0 from rfl]; omega

/-! ## The staging buffer at an odd point -/

/-- At an odd point t the buffer's entry (cc, r), r a row inside the array, is the layer at (R, cc), R row r of row
    block t / 2: the even point before left the first 512 products plus the bias, this point adds the other 512,
    and the two halves make the layer. -/
private theorem pair_sum (c : Dev nD) (t : Fin cfg0.N) (h1 : t.val % 2 = 1) (cc : Fin 81) (r : Fin 2560) (R : Fin 20000)
    (hr : r.val < rowsIn t.val) (hR : R.val = 2560 * (t.val / 2) + r.val) :
    (outsAt m c t.val t.isLt).1 (ix2 cc r) = scoresT m c (ix2 cc R) := by
  have hp : t.val - 1 < cfg0.N := Nat.lt_of_le_of_lt (Nat.sub_le _ _) t.isLt
  have hA : outsAt m c (t.val - 1) hp = firstHalf m c ⟨t.val - 1, hp⟩ :=
    outsAt_A m c ⟨t.val - 1, hp⟩ (by dsimp only; omega)
  rw [outsAt_B m c t h1, hA]
  unfold secondHalf firstHalf
  dsimp only
  refine (pay5_apply (xfull m c t) (wSlice1 (grid0.coords t) (wcls m c t)) _ cc r).trans ?_
  rw [pay3_apply (xfull m c ⟨t.val - 1, hp⟩) (wSlice1 (grid0.coords ⟨t.val - 1, hp⟩) (wcls m c ⟨t.val - 1, hp⟩)) (bcls m c ⟨t.val - 1, hp⟩) cc r]
  -- the even point of the pair reads features kk, the odd point features 512 + kk, both of row R
  have e0 : ∀ kk : Fin 512,
      wSlice1 (grid0.coords ⟨t.val - 1, hp⟩) (wcls m c ⟨t.val - 1, hp⟩) (ix2 cc kk) * xfull m c ⟨t.val - 1, hp⟩ (ix2 r kk)
        = wArr m c (ix2 cc (⟨kk.val, by omega⟩ : Fin 1024)) * xArr m c (ix2 R (⟨kk.val, by omega⟩ : Fin 1024)) := fun kk => by
    rw [wslice_at m c ⟨t.val - 1, hp⟩ cc kk ⟨kk.val, by omega⟩ (by show kk.val = 512 * ((t.val - 1) % 2) + kk.val; omega),
      xfull_at m c ⟨t.val - 1, hp⟩ r kk R ⟨kk.val, by omega⟩ (by show r.val < rowsIn (t.val - 1); rw [rowsIn_pred t.val h1]; exact hr)
        (by show R.val = 2560 * ((t.val - 1) / 2) + r.val; omega) (by show kk.val = 512 * ((t.val - 1) % 2) + kk.val; omega)]
  have e1 : ∀ kk : Fin 512,
      wSlice1 (grid0.coords t) (wcls m c t) (ix2 cc kk) * xfull m c t (ix2 r kk)
        = wArr m c (ix2 cc (⟨512 + kk.val, by omega⟩ : Fin 1024)) * xArr m c (ix2 R (⟨512 + kk.val, by omega⟩ : Fin 1024)) := fun kk => by
    rw [wslice_at m c t cc kk ⟨512 + kk.val, by omega⟩ (by show 512 + kk.val = 512 * (t.val % 2) + kk.val; omega),
      xfull_at m c t r kk R ⟨512 + kk.val, by omega⟩ hr hR (by show 512 + kk.val = 512 * (t.val % 2) + kk.val; omega)]
  rw [Finset.sum_congr rfl (fun kk _ => e0 kk), Finset.sum_congr rfl (fun kk _ => e1 kk), bias_at m c ⟨t.val - 1, hp⟩ cc]
  exact (Cert.Spec.halves (fun k => wArr m c (ix2 cc k)) (fun k => xArr m c (ix2 R k)) (bArr m c (ix1 cc))).trans
    (Cert.Spec.lin_apply 81 (xArr m c) (wArr m c) (bArr m c) R cc).symm

/-! ## From the write-backs to the array -/

/-- What a write-back moves is the transposed layer read through the point's block: entry y of the moved part
    sits at row y 0, column 2560 · (t / 2) + y 1 of the array. -/
private theorem written_back (c : Dev nD) (t : Fin cfg0.N) (hf : (cfg0.win 5).flush t = true) :
    (dats m 0 c).flushed 5 t = ((cfg0.win 5).blk t).view.read (Elt Ideal) (scoresT m c) := by
  have h1 : t.val % 2 = 1 := (flush0_5 t).mp hf
  funext y
  have hy0 : (y 0).val < win0_5.xsize (grid0.coords t) 0 := (y 0).isLt
  have hy1 : (y 1).val < win0_5.xsize (grid0.coords t) 1 := (y 1).isLt
  rw [(xsize_s t).1] at hy0
  rw [(xsize_s t).2] at hy1
  have hRlt : 2560 * (t.val / 2) + (y 1).val < 20000 := by unfold rowsIn at hy1; omega
  have hr : (y 1).val < 2560 := by unfold rowsIn at hy1; omega
  rw [View.read_apply]
  show (outsAt m c t.val t.isLt).1 (win0_5.xinj (grid0.coords t) y) = scoresT m c (((cfg0.win 5).blk t).view.emb y)
  have ex : (win0_5.xinj (grid0.coords t) y : S81x2560.Idx) = ix2 (⟨(y 0).val, hy0⟩ : Fin 81) (⟨(y 1).val, hr⟩ : Fin 2560) :=
    funext fun a => Fin.ext (by match a with | ⟨0, _⟩ => rfl | ⟨1, _⟩ => rfl)
  have ee : (((cfg0.win 5).blk t).view.emb y : S81x20000.Idx)
      = ix2 (⟨(y 0).val, hy0⟩ : Fin 81) (⟨2560 * (t.val / 2) + (y 1).val, hRlt⟩ : Fin 20000) :=
    funext fun a => Fin.ext (by
      match a with
      | ⟨0, _⟩ => show win0_5.index t 0 * 81 + 1 * (y 0).val = (y 0).val; rw [(out_index t).1]; omega
      | ⟨1, _⟩ => show win0_5.index t 1 * 2560 + 1 * (y 1).val = 2560 * (t.val / 2) + (y 1).val; rw [(out_index t).2]; omega)
  rw [ex, ee]
  exact pair_sum m c t h1 _ _ _ hy1 rfl

/-- Every entry of the array is in the block some odd point writes back: column j of the 20000 lies in row block
    j / 2560, whose odd point is 2 · (j / 2560) + 1; the last block holds the 2080 columns left. -/
private theorem covered (i : S81x20000.Idx) :
    ∃ t : Fin cfg0.N, (cfg0.win 5).flush t = true ∧ i ∈ ((cfg0.win 5).blk t).view.set := by
  have h0 : (i 0).val < 81 := (i 0).isLt
  have h1 : (i 1).val < 20000 := (i 1).isLt
  have ht : 2 * ((i 1).val / 2560) + 1 < cfg0.N := by rw [show cfg0.N = 16 from N_0]; omega
  obtain ⟨t, htv⟩ : ∃ t : Fin cfg0.N, t.val = 2 * ((i 1).val / 2560) + 1 := ⟨⟨_, ht⟩, rfl⟩
  refine ⟨t, (flush0_5 t).mpr (by omega), ?_⟩
  show i ∈ ((View.whole main_call0_v2_0).slice (win0_5.rect t)).set
  rw [View.set_slice_whole, Rect.mem_set_unit]
  intro a
  match a with
  | ⟨0, _⟩ =>
    show win0_5.index t 0 * 81 ≤ (i 0).val ∧ (i 0).val < win0_5.index t 0 * 81 + win0_5.xsize (grid0.coords t) 0
    rw [(out_index t).1, (xsize_s t).1]; omega
  | ⟨1, _⟩ =>
    show win0_5.index t 1 * 2560 ≤ (i 1).val ∧ (i 1).val < win0_5.index t 1 * 2560 + win0_5.xsize (grid0.coords t) 1
    rw [(out_index t).2, (xsize_s t).2]; unfold rowsIn; omega

/-- After the run the array behind output window 5 holds the transposed scores. -/
theorem final5 (c : Dev nD) : (dats m 0 c).arrAt 5 cfg0.N = scoresT m c :=
  (dats m 0 c).arrAt_eq_of_cover 5 (scoresT m c) (written_back m c) covered

end Cert.KernelIdeal.Hand

end
-- ==== Proof.Ideal.Value6.lean ====
/-
  The array behind the deltas' output window after the run, in closed form: the transposed deltas.

  Point t of the grid has row block t / 2 and contraction half t % 2. The deltas' block is written back at the odd
  points only. At an odd point the staging buffer holds, at an entry (cc, r) the write-back moves, the value the even
  point before it left there — the first 512 products of weight row cc with row 2560·(t/2) + r of x, plus the bias —
  plus the other 512 products: the linear layer at (2560·(t/2) + r, cc). The eight write-backs, the last one cut to
  the 2080 rows left, tile the 320 x 20000 array, so it ends holding the layer transposed.
-/
import proofs.«141124_g6244882448852_cont_9to1_m_469_19_alg».proof.Proof.Ideal.Data
import proofs.«141124_g6244882448852_cont_9to1_m_469_19_alg».proof.Proof.Ideal.PayIdx
import proofs.«141124_g6244882448852_cont_9to1_m_469_19_alg».proof.Proof.Spec
import proofs.«141124_g6244882448852_cont_9to1_m_469_19_alg».proof.Proof.Ideal.Targets
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal Cert.KernelIdeal.Gen
open Cert.KernelIdeal.Pay Idealize.ShloMosaic.ValueIdx
open scoped BigOperators

local notation "𝕄" => MT nD τ sig Unit (Elt Ideal) ℕ (UR sig nD τ) ℕ

variable (m : (ℓ : Loc nD τ sig) → Buf (Elt Ideal) ℓ)

/-! ## The argument arrays, and where this window's blocks and slices sit -/

/-- The argument arrays under their literal types, so that their entries are extended reals to the elaborator. -/
private abbrev xArr (c : Dev nD) : Vec Ideal S20000x1024 .f32 := m ((c : Thread nD τ).loc main_arg0)
private abbrev wArr (c : Dev nD) : Vec Ideal S320x1024 .f32 := m ((c : Thread nD τ).loc main_arg3)
private abbrev bArr (c : Dev nD) : Vec Ideal S320 .f32 := m ((c : Thread nD τ).loc main_arg4)

/-- The output's block at point t is block (0, t / 2) of its array. -/
private theorem out_index (t : Fin cfg0.N) : win0_6.index t 0 = 0 ∧ win0_6.index t 1 = t.val / 2 :=
  ⟨(index_facts t).2.2.2.2.1, (index_facts t).2.2.2.2.2⟩
/-- The weights' slice at point t starts at row 0, column 512 · (t % 2). -/
private theorem slice_off (t : Fin cfg0.N) :
    k0_off2 (grid0.coords t) 0 = 0 ∧ k0_off2 (grid0.coords t) 1 = 512 * (t.val % 2) :=
  ⟨(off_facts t).2.2.1, (off_facts t).2.2.2⟩

/-! ## What the body reads at a point, entry by entry -/

/-- x's block filled out with zeros, at an entry inside the array: row r of row block t / 2, feature kk of half
    t % 2 — entry (R, K) of x. -/
private theorem xfull_at (c : Dev nD) (t : Fin cfg0.N) (r : Fin 2560) (kk : Fin 512) (R : Fin 20000) (K : Fin 1024)
    (hr : r.val < rowsIn t.val) (hR : R.val = 2560 * (t.val / 2) + r.val) (hK : K.val = 512 * (t.val % 2) + kk.val) :
    xfull m c t (ix2 r kk) = m ((c : Thread nD τ).loc main_arg0) (ix2 R K) := by
  have hmv : win0_0.moved (grid0.coords t) (ix2 r kk) = true := by
    rw [Window.moved_iff]
    intro a
    match a with
    | ⟨0, _⟩ => show r.val < win0_0.xsize (grid0.coords t) 0; rw [(xsize_x t).1]; exact hr
    | ⟨1, _⟩ => show kk.val < win0_0.xsize (grid0.coords t) 1; rw [(xsize_x t).2]; exact kk.isLt
  unfold xfull Window.fill
  rw [dif_pos hmv]
  unfold xblk iblk
  rw [View.read_apply]
  show V m c main_arg0 _ = _
  rw [V_main_arg0]
  congr 1
  funext a; apply Fin.ext
  match a with
  | ⟨0, _⟩ => show win0_0.index t 0 * 2560 + 1 * r.val = R.val; rw [(index_facts t).1]; omega
  | ⟨1, _⟩ => show win0_0.index t 1 * 512 + 1 * kk.val = K.val; rw [(index_facts t).2.1]; omega

/-- The 512-column slice of the staged weights (the whole array is the one block): entry (cc, kk) is entry
    (cc, K) of the weights, K the kk-th feature of half t % 2. -/
private theorem wslice_at (c : Dev nD) (t : Fin cfg0.N) (cc : Fin 320) (kk : Fin 512) (K : Fin 1024)
    (hK : K.val = 512 * (t.val % 2) + kk.val) :
    wSlice2 (grid0.coords t) (wbox m c t) (ix2 cc kk) = m ((c : Thread nD τ).loc main_arg3) (ix2 cc K) := by
  unfold wSlice2 View.ld wbox iblk
  rw [View.read_apply]
  show V m c main_arg3 _ = _
  rw [V_main_arg3]
  congr 1
  funext a; apply Fin.ext
  match a with
  | ⟨0, _⟩ =>
    show win0_3.index t 0 * 320 + 1 * (k0_off2 (grid0.coords t) 0 + 1 * cc.val) = cc.val
    rw [(slice_off t).1, show win0_3.index t 0 = 0 from rfl]; omega
  | ⟨1, _⟩ =>
    show win0_3.index t 1 * 1024 + 1 * (k0_off2 (grid0.coords t) 1 + 1 * kk.val) = K.val
    rw [(slice_off t).2, show win0_3.index t 1 = 0 from rfl]; omega

/-- The staged bias row: the host reshaped the bias vector to one row before the region, and the row's entry
    (0, cc) is the vector's entry cc (the same row-major position). -/
private theorem bias_at (c : Dev nD) (t : Fin cfg0.N) (cc : Fin 320) :
    bbox m c t (ix2 (0 : Fin 1) cc) = m ((c : Thread nD τ).loc main_arg4) (ix1 cc) := by
  have e : (V m c main_call0_v1 : S1x320.Idx → EReal)
      = shapeCast S1x320 (m ((c : Thread nD τ).loc main_arg4)) shapeCasts_S320_S1x320 := by
    show StableHlo.after hostOps0 (fun b => m (c, b)) (Proc.devRef .tc main_call0_v1) = _
    after_results
    rfl
  unfold bbox iblk
  rw [View.read_apply]
  show V m c main_call0_v1 _ = _
  rw [e]
  refine shapeCast_apply _ _ _ (ix1 cc) ?_
  rw [Shape.rowMajor_val_one, Shape.rowMajor_val_two]
  show cc.val = (win0_4.index t 0 * 1 + 1 * 0) * 320 + (win0_4.index t 1 * 320 + 1 * cc.val)
  rw [show win0_4.index t 0 = 0 from rfl, show win0_4.index t 1 = 0 from rfl]; omega

/-! ## The staging buffer at an odd point -/

/-- At an odd point t the buffer's entry (cc, r), r a row inside the array, is the layer at (R, cc), R row r of row
    block t / 2: the even point before left the first 512 products plus the bias, this point adds the other 512,
    and the two halves make the layer. -/
private theorem pair_sum (c : Dev nD) (t : Fin cfg0.N) (h1 : t.val % 2 = 1) (cc : Fin 320) (r : Fin 2560) (R : Fin 20000)
    (hr : r.val < rowsIn t.val) (hR : R.val = 2560 * (t.val / 2) + r.val) :
    (outsAt m c t.val t.isLt).2 (ix2 cc r) = deltasT m c (ix2 cc R) := by
  have hp : t.val - 1 < cfg0.N := Nat.lt_of_le_of_lt (Nat.sub_le _ _) t.isLt
  have hA : outsAt m c (t.val - 1) hp = firstHalf m c ⟨t.val - 1, hp⟩ :=
    outsAt_A m c ⟨t.val - 1, hp⟩ (by dsimp only; omega)
  rw [outsAt_B m c t h1, hA]
  unfold secondHalf firstHalf
  dsimp only
  refine (pay6_apply (xfull m c t) (wSlice2 (grid0.coords t) (wbox m c t)) _ cc r).trans ?_
  rw [pay4_apply (xfull m c ⟨t.val - 1, hp⟩) (wSlice2 (grid0.coords ⟨t.val - 1, hp⟩) (wbox m c ⟨t.val - 1, hp⟩)) (bbox m c ⟨t.val - 1, hp⟩) cc r]
  -- the even point of the pair reads features kk, the odd point features 512 + kk, both of row R
  have e0 : ∀ kk : Fin 512,
      wSlice2 (grid0.coords ⟨t.val - 1, hp⟩) (wbox m c ⟨t.val - 1, hp⟩) (ix2 cc kk) * xfull m c ⟨t.val - 1, hp⟩ (ix2 r kk)
        = wArr m c (ix2 cc (⟨kk.val, by omega⟩ : Fin 1024)) * xArr m c (ix2 R (⟨kk.val, by omega⟩ : Fin 1024)) := fun kk => by
    rw [wslice_at m c ⟨t.val - 1, hp⟩ cc kk ⟨kk.val, by omega⟩ (by show kk.val = 512 * ((t.val - 1) % 2) + kk.val; omega),
      xfull_at m c ⟨t.val - 1, hp⟩ r kk R ⟨kk.val, by omega⟩ (by show r.val < rowsIn (t.val - 1); rw [rowsIn_pred t.val h1]; exact hr)
        (by show R.val = 2560 * ((t.val - 1) / 2) + r.val; omega) (by show kk.val = 512 * ((t.val - 1) % 2) + kk.val; omega)]
  have e1 : ∀ kk : Fin 512,
      wSlice2 (grid0.coords t) (wbox m c t) (ix2 cc kk) * xfull m c t (ix2 r kk)
        = wArr m c (ix2 cc (⟨512 + kk.val, by omega⟩ : Fin 1024)) * xArr m c (ix2 R (⟨512 + kk.val, by omega⟩ : Fin 1024)) := fun kk => by
    rw [wslice_at m c t cc kk ⟨512 + kk.val, by omega⟩ (by show 512 + kk.val = 512 * (t.val % 2) + kk.val; omega),
      xfull_at m c t r kk R ⟨512 + kk.val, by omega⟩ hr hR (by show 512 + kk.val = 512 * (t.val % 2) + kk.val; omega)]
  rw [Finset.sum_congr rfl (fun kk _ => e0 kk), Finset.sum_congr rfl (fun kk _ => e1 kk), bias_at m c ⟨t.val - 1, hp⟩ cc]
  exact (Cert.Spec.halves (fun k => wArr m c (ix2 cc k)) (fun k => xArr m c (ix2 R k)) (bArr m c (ix1 cc))).trans
    (Cert.Spec.lin_apply 320 (xArr m c) (wArr m c) (bArr m c) R cc).symm

/-! ## From the write-backs to the array -/

/-- What a write-back moves is the transposed layer read through the point's block: entry y of the moved part
    sits at row y 0, column 2560 · (t / 2) + y 1 of the array. -/
private theorem written_back (c : Dev nD) (t : Fin cfg0.N) (hf : (cfg0.win 6).flush t = true) :
    (dats m 0 c).flushed 6 t = ((cfg0.win 6).blk t).view.read (Elt Ideal) (deltasT m c) := by
  have h1 : t.val % 2 = 1 := (flush0_6 t).mp hf
  funext y
  have hy0 : (y 0).val < win0_6.xsize (grid0.coords t) 0 := (y 0).isLt
  have hy1 : (y 1).val < win0_6.xsize (grid0.coords t) 1 := (y 1).isLt
  rw [(xsize_d t).1] at hy0
  rw [(xsize_d t).2] at hy1
  have hRlt : 2560 * (t.val / 2) + (y 1).val < 20000 := by unfold rowsIn at hy1; omega
  have hr : (y 1).val < 2560 := by unfold rowsIn at hy1; omega
  rw [View.read_apply]
  show (outsAt m c t.val t.isLt).2 (win0_6.xinj (grid0.coords t) y) = deltasT m c (((cfg0.win 6).blk t).view.emb y)
  have ex : (win0_6.xinj (grid0.coords t) y : S320x2560.Idx) = ix2 (⟨(y 0).val, hy0⟩ : Fin 320) (⟨(y 1).val, hr⟩ : Fin 2560) :=
    funext fun a => Fin.ext (by match a with | ⟨0, _⟩ => rfl | ⟨1, _⟩ => rfl)
  have ee : (((cfg0.win 6).blk t).view.emb y : S320x20000.Idx)
      = ix2 (⟨(y 0).val, hy0⟩ : Fin 320) (⟨2560 * (t.val / 2) + (y 1).val, hRlt⟩ : Fin 20000) :=
    funext fun a => Fin.ext (by
      match a with
      | ⟨0, _⟩ => show win0_6.index t 0 * 320 + 1 * (y 0).val = (y 0).val; rw [(out_index t).1]; omega
      | ⟨1, _⟩ => show win0_6.index t 1 * 2560 + 1 * (y 1).val = 2560 * (t.val / 2) + (y 1).val; rw [(out_index t).2]; omega)
  rw [ex, ee]
  exact pair_sum m c t h1 _ _ _ hy1 rfl

/-- Every entry of the array is in the block some odd point writes back: column j of the 20000 lies in row block
    j / 2560, whose odd point is 2 · (j / 2560) + 1; the last block holds the 2080 columns left. -/
private theorem covered (i : S320x20000.Idx) :
    ∃ t : Fin cfg0.N, (cfg0.win 6).flush t = true ∧ i ∈ ((cfg0.win 6).blk t).view.set := by
  have h0 : (i 0).val < 320 := (i 0).isLt
  have h1 : (i 1).val < 20000 := (i 1).isLt
  have ht : 2 * ((i 1).val / 2560) + 1 < cfg0.N := by rw [show cfg0.N = 16 from N_0]; omega
  obtain ⟨t, htv⟩ : ∃ t : Fin cfg0.N, t.val = 2 * ((i 1).val / 2560) + 1 := ⟨⟨_, ht⟩, rfl⟩
  refine ⟨t, (flush0_6 t).mpr (by omega), ?_⟩
  show i ∈ ((View.whole main_call0_v2_1).slice (win0_6.rect t)).set
  rw [View.set_slice_whole, Rect.mem_set_unit]
  intro a
  match a with
  | ⟨0, _⟩ =>
    show win0_6.index t 0 * 320 ≤ (i 0).val ∧ (i 0).val < win0_6.index t 0 * 320 + win0_6.xsize (grid0.coords t) 0
    rw [(out_index t).1, (xsize_d t).1]; omega
  | ⟨1, _⟩ =>
    show win0_6.index t 1 * 2560 ≤ (i 1).val ∧ (i 1).val < win0_6.index t 1 * 2560 + win0_6.xsize (grid0.coords t) 1
    rw [(out_index t).2, (xsize_d t).2]; unfold rowsIn; omega

/-- After the run the array behind output window 6 holds the transposed deltas. -/
theorem final6 (c : Dev nD) : (dats m 0 c).arrAt 6 cfg0.N = deltasT m c :=
  (dats m 0 c).arrAt_eq_of_cover 6 (deltasT m c) (written_back m c) covered

end Cert.KernelIdeal.Hand

end
-- ==== Proof.Ideal.Tail.lean ====
/-
  The host tail of the idealized kernel: what @main returns, given what its one region leaves.

  The kernel's region computes the two linear layers TRANSPOSED — an 81 x 20000 and a 320 x 20000 array — and the
  two host lines after it transpose each back. If the region leaves its two output arrays at the transposed layers'
  values, the two returned buffers hold the layers themselves: a transpose read at (r, c) reads its operand at
  (c, r), and the transposed layer at (c, r) is by definition the layer at (r, c). Each host line writes its own
  result buffer only, so each result is read off through the other line unchanged.
-/
import proofs.«141124_g6244882448852_cont_9to1_m_469_19_alg».proof.Proof.Ideal.Targets
import Idealize.ShloMosaic.Lib.StableHlo.Run
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Idealize.ShloMosaic.ValueIdx
open Cert.KernelIdeal Cert.KernelIdeal.Gen

variable (m : (ℓ : Loc nD τ sig) → Buf (Elt Ideal) ℓ)

/-! ## The two host transposes after the region -/

/-- The index a [1, 0] transpose reads its operand at: the two coordinates exchanged. -/
abbrev tailIdx {n0 n1 : Nat} (i : (⟨2, ![n0, n1]⟩ : Shape).Idx) : (⟨2, ![n1, n0]⟩ : Shape).Idx := fun a => match a with
  | ⟨0, _⟩ => ⟨(i 1).val, (i 1).isLt⟩
  | ⟨1, _⟩ => ⟨(i 0).val, (i 0).isLt⟩

/-- The scores as @main returns them: the first host line after the region transposes the region's 81 x 20000 array,
    which holds the classifier layer transposed (`h5`); transposing back, entry (r, c) is the layer at (r, c). The
    second line writes another buffer and is read through. -/
theorem scores_eq (c : Dev nD) (h5 : (dats m 0 c).arrAt 5 cfg0.N = scoresT m c) :
    Pipeline.afterTail₀ cfgs (dats m) 0 (V0 m) [hostOps1] c main_v0_0
      = Cert.Spec.lin 81 (m ((c : Thread nD τ).loc main_arg0)) (m ((c : Thread nD τ).loc main_arg1)) (m ((c : Thread nD τ).loc main_arg2)) := by
  unfold Pipeline.afterTail₀
  show StableHlo.after hostOps1 _ (Proc.devRef .tc main_v0_0) = _
  after_results
  -- the region leaves window 5's array, which is the transpose's operand, at the transposed scores
  refine (congrArg (fun x => transpose S20000x81 [1, 0] x transposes_S81x20000_S20000x81_1_0)
    ((Pipeline.withArrays_arr spec0 launch0.win.arr_inj c (V0 m c) (fun w => (dats m 0 c).arrAt w cfg0.N) 5).trans h5)).trans ?_
  funext i
  -- the transpose at (r, c) reads its operand at (c, r), where the transposed scores read the layer at (r, c)
  refine (transpose_apply [1, 0] (scoresT m c) transposes_S81x20000_S20000x81_1_0 i (tailIdx i) (fun b => match b with
    | ⟨0, _⟩ => rfl
    | ⟨1, _⟩ => rfl)).trans ?_
  unfold scoresT
  exact congrArg (Cert.Spec.lin 81 (m ((c : Thread nD τ).loc main_arg0)) (m ((c : Thread nD τ).loc main_arg1)) (m ((c : Thread nD τ).loc main_arg2)))
    (eq_ix2 i).symm

/-- The box deltas as @main returns them: the second host line transposes the region's 320 x 20000 array, which
    holds the box-regression layer transposed (`h6`); the first line writes another buffer and is read through. -/
theorem deltas_eq (c : Dev nD) (h6 : (dats m 0 c).arrAt 6 cfg0.N = deltasT m c) :
    Pipeline.afterTail₀ cfgs (dats m) 0 (V0 m) [hostOps1] c main_v0_1
      = Cert.Spec.lin 320 (m ((c : Thread nD τ).loc main_arg0)) (m ((c : Thread nD τ).loc main_arg3)) (m ((c : Thread nD τ).loc main_arg4)) := by
  unfold Pipeline.afterTail₀
  show StableHlo.after hostOps1 _ (Proc.devRef .tc main_v0_1) = _
  after_results
  refine (congrArg (fun x => transpose S20000x320 [1, 0] x transposes_S320x20000_S20000x320_1_0)
    ((Pipeline.withArrays_arr spec0 launch0.win.arr_inj c (V0 m c) (fun w => (dats m 0 c).arrAt w cfg0.N) 6).trans h6)).trans ?_
  funext i
  refine (transpose_apply [1, 0] (deltasT m c) transposes_S320x20000_S20000x320_1_0 i (tailIdx i) (fun b => match b with
    | ⟨0, _⟩ => rfl
    | ⟨1, _⟩ => rfl)).trans ?_
  unfold deltasT
  exact congrArg (Cert.Spec.lin 320 (m ((c : Thread nD τ).loc main_arg0)) (m ((c : Thread nD τ).loc main_arg3)) (m ((c : Thread nD τ).loc main_arg4)))
    (eq_ix2 i).symm

end Cert.KernelIdeal.Hand

end
-- ==== Proof.RefValue.lean ====
/-
  The reference side: what the reference program computes, read index by index, is the specification's linear layer.

  Each of the reference's two results is a contraction of x with a transposed weight matrix plus a bias broadcast
  along the rows. Read at the index (r, c): the contraction is the sum over k of x[r, k] times the transposed
  matrix at (k, c), which is W[c, k]; the twice-broadcast bias at (r, c) is b[c]; the float addition on the
  extended reals is +. That is the layer Σ_k x[r,k]·W[c,k] + b[c] of the specification.
-/
import proofs.«141124_g6244882448852_cont_9to1_m_469_19_alg».proof.Defs
import proofs.«141124_g6244882448852_cont_9to1_m_469_19_alg».proof.Proof.Gen.ReferenceIdeal.Run
import proofs.«141124_g6244882448852_cont_9to1_m_469_19_alg».proof.Proof.Gen.ReferenceIdeal.Read
import proofs.«141124_g6244882448852_cont_9to1_m_469_19_alg».proof.Proof.Spec

noncomputable section

namespace Cert.RefSide

open Idealize.ShloMosaic Idealize.ShloMosaic.ValueIdx Cert.ReferenceIdeal Cert.ReferenceIdeal.Read
open scoped BigOperators

/-- The reference's scores are the layer with 81 outputs. -/
theorem ref_scores (x0 : (⟨Cert.ReferenceIdeal.S20000x1024, .f32⟩ : BufTy).Contents (Elt Ideal)) (x1 : (⟨Cert.ReferenceIdeal.S81x1024, .f32⟩ : BufTy).Contents (Elt Ideal)) (x2 : (⟨Cert.ReferenceIdeal.S81, .f32⟩ : BufTy).Contents (Elt Ideal)) :
    Cert.ReferenceIdeal.Read.val_main_v4 (F := Ideal) x0 x1 x2 = Cert.Spec.lin 81 x0 x1 x2 := by
  funext i
  obtain ⟨r, c, rfl⟩ : ∃ (r : Fin 20000) (c : Fin 81), i = ix2 r c := ⟨i 0, i 1, eq_ix2 i⟩
  -- the contraction reads x at (r, k) …
  have el : ∀ k : Fin 1024, lidx_main_v1 (ix2 r c) k = ix2 r k := fun k =>
    funext fun a => Fin.ext (by match a with | ⟨0, _⟩ => rfl | ⟨1, _⟩ => rfl)
  -- … and the transposed weights at (k, c), that is W at (c, k)
  have er : ∀ k : Fin 1024, idx_main_v0 (ridx_main_v1 (ix2 r c) k) = ix2 c k := fun k =>
    funext fun a => Fin.ext (by match a with | ⟨0, _⟩ => rfl | ⟨1, _⟩ => rfl)
  -- the bias, broadcast to one row and then to every row, is read at c
  have eb : idx_main_v2 (idx_main_v3 (ix2 r c)) = ix1 c :=
    funext fun a => Fin.ext (by match a with | ⟨0, _⟩ => rfl)
  rw [Cert.Spec.lin_apply, val_main_v4_apply, val_main_v1_apply, val_main_v3_apply, val_main_v2_apply]
  simp only [val_main_v0_apply, el, er, eb, Ideal.addf_def]

/-- The reference's deltas are the layer with 320 outputs. -/
theorem ref_deltas (x0 : (⟨Cert.ReferenceIdeal.S20000x1024, .f32⟩ : BufTy).Contents (Elt Ideal)) (x3 : (⟨Cert.ReferenceIdeal.S320x1024, .f32⟩ : BufTy).Contents (Elt Ideal)) (x4 : (⟨Cert.ReferenceIdeal.S320, .f32⟩ : BufTy).Contents (Elt Ideal)) :
    Cert.ReferenceIdeal.Read.val_main_v9 (F := Ideal) x0 x3 x4 = Cert.Spec.lin 320 x0 x3 x4 := by
  funext i
  obtain ⟨r, c, rfl⟩ : ∃ (r : Fin 20000) (c : Fin 320), i = ix2 r c := ⟨i 0, i 1, eq_ix2 i⟩
  have el : ∀ k : Fin 1024, lidx_main_v6 (ix2 r c) k = ix2 r k := fun k =>
    funext fun a => Fin.ext (by match a with | ⟨0, _⟩ => rfl | ⟨1, _⟩ => rfl)
  have er : ∀ k : Fin 1024, idx_main_v5 (ridx_main_v6 (ix2 r c) k) = ix2 c k := fun k =>
    funext fun a => Fin.ext (by match a with | ⟨0, _⟩ => rfl | ⟨1, _⟩ => rfl)
  have eb : idx_main_v7 (idx_main_v8 (ix2 r c)) = ix1 c :=
    funext fun a => Fin.ext (by match a with | ⟨0, _⟩ => rfl)
  rw [Cert.Spec.lin_apply, val_main_v9_apply, val_main_v6_apply, val_main_v8_apply, val_main_v7_apply]
  simp only [val_main_v5_apply, el, er, eb, Ideal.addf_def]

end Cert.RefSide

end
-- ==== Proof.lean ====
/-
  Two linear layers over the same activations, scores = x · W_clsᵀ + b_cls and deltas = x · W_boxᵀ + b_box
  (x : 20000 x 1024, W_cls : 81 x 1024, W_box : 320 x 1024), computed by ONE kernel that streams x once: over a grid
  of 8 row blocks (2560 rows; the last holds 2080 rows of the array, so its transfers are cut) by 2 halves of the
  1024 input features it accumulates the TRANSPOSED results — on the first half the product of the weights' first
  512 columns with the block's rows plus the bias, on the second half that plus the product over the other 512
  columns — and the host transposes them back. Against the reference's x · Wᵀ + b this is one sum of 1024 products
  split in two and taken in another order, with the factors commuted: equal on the extended reals by commutativity
  and associativity alone, so the precondition is never opened.

  The frames: the word-level program's needs no contents at all (the matrix unit's result there is an
  uninterpreted function of a staging buffer whose tail past the array's end nothing names), so its pipeline is run
  with every window's contents left unconstrained; the idealized program's run names every staging buffer on the
  entries its transfers move — at the extended reals a moved entry of a product depends only on moved rows of x's
  block — and is read both at the arguments (the frame) and at the results (the values); the reference is a
  straight line of host operations. The idealization rewrote nothing, so there is nothing to preserve.
-/
import proofs.«141124_g6244882448852_cont_9to1_m_469_19_alg».proof.Defs
import proofs.«141124_g6244882448852_cont_9to1_m_469_19_alg».proof.Proof.Gen.Kernel
import proofs.«141124_g6244882448852_cont_9to1_m_469_19_alg».proof.Proof.Gen.KernelIdeal
import proofs.«141124_g6244882448852_cont_9to1_m_469_19_alg».proof.Proof.Gen.ReferenceIdeal
import proofs.«141124_g6244882448852_cont_9to1_m_469_19_alg».proof.Proof.Gen.Pre_finite_inputs
import proofs.«141124_g6244882448852_cont_9to1_m_469_19_alg».proof.Proof.Bits.Frame
import proofs.«141124_g6244882448852_cont_9to1_m_469_19_alg».proof.Proof.Ideal.Launch
import proofs.«141124_g6244882448852_cont_9to1_m_469_19_alg».proof.Proof.Ideal.Value5
import proofs.«141124_g6244882448852_cont_9to1_m_469_19_alg».proof.Proof.Ideal.Value6
import proofs.«141124_g6244882448852_cont_9to1_m_469_19_alg».proof.Proof.Ideal.Tail
import proofs.«141124_g6244882448852_cont_9to1_m_469_19_alg».proof.Proof.RefValue
import Idealize.ShloMosaic.Adequacy
import Idealize.ShloMosaic.Init

noncomputable section

namespace Cert.Proof

open Idealize.ShloMosaic Idealize.SL.Sem

/-- The word-level program runs and leaves its arguments unchanged. -/
theorem frame_k : Cert.frame_Kernel := fun m ρ _ => Cert.Kernel.Hand.frame m ρ
/-- So does the idealized program, -/
theorem frame_ki : Cert.frame_KernelIdeal := fun m ρ _ => Cert.KernelIdeal.Hand.frame m ρ
/-- and the reference: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the two linear layers of the (agreeing) arguments. -/
theorem algebraic : Cert.algebraic_KernelIdeal_ReferenceIdeal := by
  intro m ρ m' ρ' _ hagree
  refine ⟨fun c => Cert.Spec.lin 81 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Spec.lin 320 (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun _ h c =>
      ⟨(h c).1.trans (Cert.KernelIdeal.Hand.scores_eq m c (Cert.KernelIdeal.Hand.final5 m c)),
       (h c).2.1.trans (Cert.KernelIdeal.Hand.deltas_eq m c (Cert.KernelIdeal.Hand.final6 m c)),
       (h c).2.2⟩) (Cert.KernelIdeal.Hand.run_results m ρ)
  · refine (θ_run Cert.ReferenceIdeal.defs _ _).mono (fun _ h c => ⟨?_, ?_, (h c).2.2⟩) (Cert.ReferenceIdeal.Value.run (F := Ideal) m' ρ')
    · rw [(h c).1, Cert.ReferenceIdeal.Read.val_main_v4_eq, Cert.RefSide.ref_scores, (hagree c).1, (hagree c).2.1, (hagree c).2.2.1]
    · rw [(h c).2.1, Cert.ReferenceIdeal.Read.val_main_v9_eq, Cert.RefSide.ref_deltas, (hagree c).1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
